-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S32000 : Shape := ⟨1, ![32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S32000 : S_.BroadcastsInDim S32000 (![] : Fin 0 → Fin S32000.rank)
  reducesTo_S32000_S_d0 : S32000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x32000 .f32) (main_arg1 : IVec S4096 32) (main_arg2 : FVec F S32000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S32000 .f32 := Host.absf main_arg2
  let main_cst_0 : FVec F S_ .f32 := constant S_ .f32 0x7F800000#32
  let main_v5 : FVec F S32000 .f32 := broadcastInDim S32000 ![] bcast_S_S32000 main_cst_0
  let main_v6 : IVec S32000 1 := cmpf .olt main_v4 main_v5
  let main_c_1 : IVec S_ 1 := constantI S_ 1 1#1
  let main_v7 : IVec S_ 1 := (fun x v => Host.reduce IntOp.andi x v reducesTo_S32000_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 32000#32
  let main_v13 : IVec S4096 32 := broadcastInDim S4096 ![] bcast_S_S4096 main_c_4
  let main_v14 : IVec S4096 1 := cmpi .slt main_arg1 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x32000 : Shape := ⟨2, ![4096, 32000]⟩
abbrev S4096 : Shape := ⟨1, ![4096]⟩
abbrev S32000 : Shape := ⟨1, ![32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S256x6400 : Shape := ⟨2, ![256, 6400]⟩
abbrev S256x1 : Shape := ⟨2, ![256, 1]⟩
abbrev S256 : Shape := ⟨1, ![256]⟩

abbrev nBuf : Space → Nat
  | .hbm => 60
  | .vmem => 10
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S32000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .f32⟩
  | .hbm, ⟨12, _⟩ => ⟨S_, .f32⟩
  | .hbm, ⟨13, _⟩ => ⟨S32000, .f32⟩
  | .hbm, ⟨14, _⟩ => ⟨S32000, .f32⟩
  | .hbm, ⟨15, _⟩ => ⟨S_, .f32⟩
  | .hbm, ⟨16, _⟩ => ⟨S32000, .f32⟩
  | .hbm, ⟨17, _⟩ => ⟨S32000, .f32⟩
  | .hbm, ⟨18, _⟩ => ⟨S_, .f32⟩
  | .hbm, ⟨19, _⟩ => ⟨S_, .f32⟩
  | .hbm, ⟨20, _⟩ => ⟨S32000, .f32⟩
  | .hbm, ⟨21, _⟩ => ⟨S32000, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096, .f32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S4096x1x1, .i32⟩
  | .hbm, ⟨40, _⟩ => ⟨S1, .i32⟩
  | .hbm, ⟨41, _⟩ => ⟨S_, .i32⟩
  | .hbm, ⟨42, _⟩ => ⟨S4096x1x1, .i32⟩
  | .hbm, ⟨43, _⟩ => ⟨S4096x1x1, .i1⟩
  | .hbm, ⟨44, _⟩ => ⟨S1x1x1, .i32⟩
  | .hbm, ⟨45, _⟩ => ⟨S4096x1x1, .i32⟩
  | .hbm, ⟨46, _⟩ => ⟨S4096x1x1, .i1⟩
  | .hbm, ⟨47, _⟩ => ⟨S4096x1x1, .i1⟩
  | .hbm, ⟨48, _⟩ => ⟨S_, .i1⟩
  | .hbm, ⟨49, _⟩ => ⟨S4096x1, .i1⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_cst_6 : Ref sig .tc := ⟨.hbm, 58, rfl⟩
abbrev main_v21 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  reducesTo_S32000_S_d0 : S32000.ReducesTo [0] S_
  h_S_ : 0 < S_.numel
  bcast_S_S32000 : S_.BroadcastsInDim S32000 (![] : Fin 0 → Fin S32000.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  reduces_S256x6400_S256 : S256x6400.Reduces [1] S256
  shapeCasts_S256_S256x1 : S256.ShapeCasts S256x1
  broadcasts_S256x1_S256x6400 : S256x1.Broadcasts S256x6400
  reducesTo_S4096x1_S_d0_1 : S4096x1.ReducesTo [0, 1] S_
  gather_S32000_S4096x1_S4096_n_0_n_n_0_1_1_wf : GatherDims.WF S32000 S4096x1 S4096 [] [0] [] [0] [] 1 ![1]
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x32000.size a
  hwx0_0 : ∀ i : grid0.Coords, EltTy.bits .f32 = 32 ∨ (Rect.block (s := S4096x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S32000 : Shape := ⟨1, ![32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S32000, .f32⟩
  | .hbm, ⟨3, _⟩ => ⟨S_, .f32⟩
  | .hbm, ⟨4, _⟩ => ⟨S_, .f32⟩
  | .hbm, ⟨5, _⟩ => ⟨S32000, .f32⟩
  | .hbm, ⟨6, _⟩ => ⟨S32000, .f32⟩
  | .hbm, ⟨7, _⟩ => ⟨S_, .f32⟩
  | .hbm, ⟨8, _⟩ => ⟨S32000, .f32⟩
  | .hbm, ⟨9, _⟩ => ⟨S32000, .f32⟩
  | .hbm, ⟨10, _⟩ => ⟨S_, .f32⟩
  | .hbm, ⟨11, _⟩ => ⟨S_, .f32⟩
  | .hbm, ⟨12, _⟩ => ⟨S32000, .f32⟩
  | .hbm, ⟨13, _⟩ => ⟨S32000, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x32000, .f32⟩
  | .hbm, ⟨21, _⟩ => ⟨S4096x32000, .f32⟩
  | .hbm, ⟨22, _⟩ => ⟨S4096x32000, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S4096x32000, .f32⟩
  | .hbm, ⟨28, _⟩ => ⟨S4096x32000, .f32⟩
  | .hbm, ⟨29, _⟩ => ⟨S4096x1, .i32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S_, .i32⟩
  | .hbm, ⟨34, _⟩ => ⟨S4096x1, .i32⟩
  | .hbm, ⟨35, _⟩ => ⟨S4096x1, .i32⟩
  | .hbm, ⟨36, _⟩ => ⟨S4096x1, .i32⟩
  | .hbm, ⟨37, _⟩ => ⟨S4096x1x1, .i32⟩
  | .hbm, ⟨38, _⟩ => ⟨S1, .i32⟩
  | .hbm, ⟨39, _⟩ => ⟨S_, .i32⟩
  | .hbm, ⟨40, _⟩ => ⟨S4096x1x1, .i32⟩
  | .hbm, ⟨41, _⟩ => ⟨S4096x1x1, .i1⟩
  | .hbm, ⟨42, _⟩ => ⟨S1x1x1, .i32⟩
  | .hbm, ⟨43, _⟩ => ⟨S4096x1x1, .i32⟩
  | .hbm, ⟨44, _⟩ => ⟨S4096x1x1, .i1⟩
  | .hbm, ⟨45, _⟩ => ⟨S4096x1x1, .i1⟩
  | .hbm, ⟨46, _⟩ => ⟨S_, .i1⟩
  | .hbm, ⟨47, _⟩ => ⟨S4096x1, .i1⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096, .f32⟩
  | .hbm, ⟨53, _⟩ => ⟨S4096, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v8 : Ref sig .tc := ⟨.hbm, 28, rfl⟩
abbrev main_v9 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_c : Ref sig .tc := ⟨.hbm, 54, rfl⟩
abbrev main_v13 : Ref sig .tc := ⟨.hbm, 55, rfl⟩
abbrev main_v14 : Ref sig .tc := ⟨.hbm, 56, rfl⟩
abbrev main_c_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩

abbrev nD : Nat := 1
abbrev τ : Topo := Topo.v7x

variable {F : FTy → Type} [FloatOps F]

class Facts₀ : Prop where
  reducesTo_S32000_S_d0 : S32000.ReducesTo [0] S_
  h_S_ : 0 < S_.numel
  bcast_S_S32000 : S_.BroadcastsInDim S32000 (![] : Fin 0 → Fin S32000.rank)
  reducesTo_S4096x32000_S4096_d1 : S4096x32000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]
  gather_S32000_S4096x1_S4096_n_0_n_n_0_1_1_wf : GatherDims.WF S32000 S4096x1 S4096 [] [0] [] [0] [] 1 ![1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf

class Facts : Prop extends Facts₀ where

variable [Facts]
-- ==== Proof.PreFacts.lean ====
import proofs.«405151_j91018946937483_3_alg».proof.Pre_finite_inputs
import Idealize.ShloMosaic.PureOps.Ideal
import Idealize.ShloMosaic.Lib.Affine
import Idealize.ShloMosaic.Lib.ReduceAll
import Idealize.ShloMosaic.Lib.StableHlo.Predicate
import Idealize.ShloMosaic.Lib.ValueIdx

/-!
  What the precondition says about the arguments.

  The precondition is a conjunction of four "for all" statements, each a reduction by "and" of a pointwise
  comparison: |x| < +∞ for every logit and every class count, 0 ≤ t and t < 32000 (as signed integers) for
  every label. When the conjunction is true each comparison holds at every index. On the extended reals
  max x (-x) < +∞ excludes exactly the two infinities, so every logit is a real number; a signed comparison
  of two words is the comparison of the integers they denote.
-/

namespace Cert.PreFacts
open Idealize.ShloMosaic

/-- The shape of a scalar has exactly one index. -/
instance : Subsingleton Cert.Pre_finite_inputs.S_.Idx := ⟨fun a b => funext fun d => d.elim0⟩

/-- The word 0x7F800000 denotes +∞. -/
theorem inf_word : Ideal.ofBits .f32 0x7F800000#32 = ⊤ := by simp [Ideal.ofBits, Ideal.ieee]

/-- An extended real with |x| < +∞ (that is, max x (-x) < +∞) is a real number: at -∞ and at +∞ the maximum is +∞. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every logit is a finite real and every label is a column number of the table. -/
theorem decode [Cert.Pre_finite_inputs.Facts]
    (X : FVec Ideal Cert.Pre_finite_inputs.S4096x32000 .f32) (T : IVec Cert.Pre_finite_inputs.S4096 32)
    (Cc : FVec Ideal Cert.Pre_finite_inputs.S32000 .f32)
    (h : Cert.Pre_finite_inputs.fn (F := Ideal) X T Cc = fun _ => 1#1) :
    (∀ i, ∃ x : ℝ, X i = (x : EReal)) ∧ (∀ i, 0 ≤ (T i).toInt ∧ (T i).toInt < 32000) := by
  -- the one entry of the result, as a conjunction of four reductions by "and"
  have h0 := congrFun h ValueIdx.ix0
  dsimp only [Cert.Pre_finite_inputs.fn, Cert.Pre_finite_inputs.fn_part1] at h0
  simp only [andi, IntOp.andi_eq_one] at h0
  obtain ⟨⟨⟨hX, _⟩, hge⟩, hlt⟩ := h0
  refine ⟨fun i => ?_, fun i => ⟨?_, ?_⟩⟩
  · -- |X i| < +∞
    exact real_of_abs_lt_inf (X i) (Host.reduce_andi_all _ _ _ _ _ hX i)
  · -- 0 ≤ T i
    have e : IntOp.cmpi .sge (T i) 0#32 = 1#1 := Host.reduce_andi_all _ _ _ _ _ hge i
    have e' := IntOp.cmpi_sge.1 e
    have z : (0#32 : BitVec 32).toInt = 0 := by decide
    rwa [z] at e'
  · -- T i < 32000
    have e : IntOp.cmpi .slt (T i) 32000#32 = 1#1 := Host.reduce_andi_all _ _ _ _ _ hlt i
    have e' := IntOp.cmpi_slt.1 e
    have z : (32000#32 : BitVec 32).toInt = 32000 := by decide
    rwa [z] at e'

end Cert.PreFacts
-- ==== Proof.KPieces.lean ====
import proofs.«405151_j91018946937483_3_alg».proof.Proof.Gen.KernelIdeal.Frame
import Idealize.ShloMosaic.Lib.Pipeline.Value

set_option maxRecDepth 16384

noncomputable section

/-! What each control case of the body leaves in the two scratches it carries from one column block to the next (the
    running maximum and the running sum of exponentials) and, in the last column block, in the output block: each is one
    of the body's pure payloads of the point's input blocks and of what the point before left. -/

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-block access, however spelt. -/
theorem hz : (![0, 0] : Fin S256x1.rank → Nat) = fun _ => 0 := by
  funext a; match a with | ⟨0, _⟩ => rfl | ⟨1, _⟩ => rfl

/-- The same for the logits block. -/
theorem hz2 : (![0, 0] : Fin S256x6400.rank → Nat) = fun _ => 0 := by
  funext a; match a with | ⟨0, _⟩ => rfl | ⟨1, _⟩ => rfl

variable (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole)

/-- First column block: the running maximum is taken against the finite starting constant. -/
theorem sout_A_0 (hc0 : cond0_0 i) (hc1 : ¬cond0_1 i) (x0 : Vec F S256x6400 .f32) (x1 : Vec F S256x1 .f32) (x2 : Vec F S256x1 .f32) :
    sout0_A_0 c i arg2 harg2 arg3 harg3 arg4 harg4 arg5 harg5 arg6 harg6 arg7 harg7 hc0 hc1 x0 x1 x2 = k0_pay5 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- First column block: the running sum starts from zero, at the starting constant as old shift. -/
theorem sout_A_1 (hc0 : cond0_0 i) (hc1 : ¬cond0_1 i) (x0 : Vec F S256x6400 .f32) (x1 : Vec F S256x1 .f32) (x2 : Vec F S256x1 .f32) :
    sout0_A_1 c i arg2 harg2 arg3 harg3 arg4 harg4 arg5 harg5 arg6 harg6 arg7 harg7 hc0 hc1 x0 x1 x2 = k0_pay4 x0 (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- A middle column block: the running maximum over what the point before left. -/
theorem sout_B_0 (hc0 : ¬cond0_0 i) (hc1 : ¬cond0_1 i) (x0 : Vec F S256x6400 .f32) (x1 : Vec F S256x1 .f32) (x2 : Vec F S256x1 .f32)
    (xs0 xs1 : Vec F S256x1 .f32) :
    sout0_B_0 c i arg2 harg2 arg3 harg3 arg4 harg4 arg5 harg5 arg6 harg6 arg7 harg7 hc0 hc1 x0 x1 x2 xs0 xs1 = k0_pay5 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- A middle column block: the running sum rescaled from the old shift and extended by the block. -/
theorem sout_B_1 (hc0 : ¬cond0_0 i) (hc1 : ¬cond0_1 i) (x0 : Vec F S256x6400 .f32) (x1 : Vec F S256x1 .f32) (x2 : Vec F S256x1 .f32)
    (xs0 xs1 : Vec F S256x1 .f32) :
    sout0_B_1 c i arg2 harg2 arg3 harg3 arg4 harg4 arg5 harg5 arg6 harg6 arg7 harg7 hc0 hc1 x0 x1 x2 xs0 xs1 = k0_pay4 x0 xs0 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- The last column block updates the running maximum like a middle one. -/
theorem sout_C_0 (hc0 : ¬cond0_0 i) (hc1 : cond0_1 i) (x0 : Vec F S256x6400 .f32) (x1 : Vec F S256x1 .f32) (x2 : Vec F S256x1 .f32)
    (xs0 xs1 : Vec F S256x1 .f32) :
    sout0_C_0 c i arg2 harg2 arg3 harg3 arg4 harg4 arg5 harg5 arg6 harg6 arg7 harg7 hc0 hc1 x0 x1 x2 xs0 xs1 = k0_pay5 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- The last column block updates the running sum like a middle one. -/
theorem sout_C_1 (hc0 : ¬cond0_0 i) (hc1 : cond0_1 i) (x0 : Vec F S256x6400 .f32) (x1 : Vec F S256x1 .f32) (x2 : Vec F S256x1 .f32)
    (xs0 xs1 : Vec F S256x1 .f32) :
    sout0_C_1 c i arg2 harg2 arg3 harg3 arg4 harg4 arg5 harg5 arg6 harg6 arg7 harg7 hc0 hc1 x0 x1 x2 xs0 xs1 = k0_pay4 x0 xs0 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

/-- The last column block writes the output block from the label logits, the final maximum and sum, and the weights. -/
theorem out_C_3 (hc0 : ¬cond0_0 i) (hc1 : cond0_1 i) (x0 : Vec F S256x6400 .f32) (x1 : Vec F S256x1 .f32) (x2 : Vec F S256x1 .f32)
    (xs0 xs1 : Vec F S256x1 .f32) :
    out0_C_3 c i arg2 harg2 arg3 harg3 arg4 harg4 arg5 harg5 arg6 harg6 arg7 harg7 hc0 hc1 x0 x1 x2 xs0 xs1 = k0_pay6 x1 (k0_pay5 x0 xs0) (k0_pay4 x0 xs0 xs0 xs1) x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S256x1) hz]
  simp only [View.readAt_eq_ld, harg2.read_unread, harg3.read_unread, harg4.read_unread, harg6.read_unread, harg7.read_unread,
    View.ld_unit_zero (S := S256x6400) hz2, View.ld_unit_zero (S := S256x1) hz, View.readCov_unit_zero (S := S256x1) _ hz]

end Cert.KernelIdeal.KV

end
-- ==== Proof.KScr.lean ====
/-
  The two carried scratches, and the output block, as a fold of the body's payloads over the column blocks of one
  row block: after column block 0 the running maximum and running sum are the first block's update of the starting
  constant and of zero; after column block n + 1 they are that block's update of what column block n left; the output
  block is the last payload of the label logits, the scratches after column block 4 and the weights.
-/
import proofs.«405151_j91018946937483_3_alg».proof.Proof.Gen.KernelIdeal.Skeleton

noncomputable section

namespace Cert.KernelIdeal.KV

open Idealize.ShloMosaic Cert.KernelIdeal Cert.KernelIdeal.Gen

variable {F : FTy → Type} [FloatOps F]

/-- The running maximum and the running sum after column blocks `0 … n` of a row block whose column block `k` is `xb k`. -/
def scr (xb : ℕ → Vec F S256x6400 .f32) : ℕ → Vec F S256x1 .f32 × Vec F S256x1 .f32
  | 0 => (k0_pay5 (xb 0) (k0_pay1 (F := F)), k0_pay4 (xb 0) (k0_pay1 (F := F)) (k0_pay1 (F := F)) (k0_pay2 (F := F)))
  | n + 1 => (k0_pay5 (xb (n + 1)) (scr xb n).1, k0_pay4 (xb (n + 1)) (scr xb n).1 (scr xb n).1 (scr xb n).2)

theorem scr_zero (xb : ℕ → Vec F S256x6400 .f32) :
    scr xb 0 = (k0_pay5 (xb 0) (k0_pay1 (F := F)), k0_pay4 (xb 0) (k0_pay1 (F := F)) (k0_pay1 (F := F)) (k0_pay2 (F := F))) := rfl

theorem scr_succ (xb : ℕ → Vec F S256x6400 .f32) (n : ℕ) :
    scr xb (n + 1) = (k0_pay5 (xb (n + 1)) (scr xb n).1, k0_pay4 (xb (n + 1)) (scr xb n).1 (scr xb n).1 (scr xb n).2) := rfl

/-- The output block of a row block: from the label logits `tl`, the scratches after its five column blocks, and the weights `wt`. -/
def outBlk (xb : ℕ → Vec F S256x6400 .f32) (tl wt : Vec F S256x1 .f32) : Vec F S256x1 .f32 :=
  k0_pay6 tl (scr xb 4).1 (scr xb 4).2 wt

end Cert.KernelIdeal.KV

end
-- ==== Proof.KInv.lean ====
/-
  The scratches point by point. The grid runs the 5 column blocks of row block 0, then those of row block 1, …: point
  `t` is column block `t % 5` of row block `t / 5`. After point `t` the two carried scratches hold the fold `scr` of the
  payloads over column blocks `0 … t % 5` of `t`'s row block (the first column block restarts both), and at a last
  column block the output block is `outBlk` of that row block. By induction on the point, one control case at a time.
-/
import proofs.«405151_j91018946937483_3_alg».proof.Proof.KPieces
import proofs.«405151_j91018946937483_3_alg».proof.Proof.KScr

set_option maxRecDepth 16384

noncomputable section

namespace Cert.KernelIdeal.KV

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The grid has 16 · 5 points. -/
theorem N80 : cfg0.N = 80 := N_0

/-- The three input blocks at a point, at their literal types: the logits block, the label logits, the weights. -/
abbrev xblk (c : Dev nD) (t : Fin cfg0.N) : Vec F S256x6400 .f32 := iblk m c 0 t
abbrev tblk (c : Dev nD) (t : Fin cfg0.N) : Vec F S256x1 .f32 := iblk m c 1 t
abbrev wblk (c : Dev nD) (t : Fin cfg0.N) : Vec F S256x1 .f32 := iblk m c 2 t

/-- Column block `k` of the row block that point `t` lies in (total in `k`: past the grid it repeats the last point). -/
def xbOf (c : Dev nD) (t : Fin cfg0.N) (k : ℕ) : Vec F S256x6400 .f32 :=
  xblk m c ⟨min (t.val - t.val % 5 + k) 79, lt_of_lt_of_eq (by omega : min (t.val - t.val % 5 + k) 79 < 80) N80.symm⟩

/-- A point is its own column block of its row block. -/
theorem xbOf_self (c : Dev nD) (t : Fin cfg0.N) : xbOf m c t (t.val % 5) = xblk m c t := by
  unfold xbOf
  congr 1
  apply Fin.ext
  have : t.val < 80 := lt_of_lt_of_eq t.isLt N80
  show min (t.val - t.val % 5 + t.val % 5) 79 = t.val
  omega

/-- Inside a row block the next point sees the same column blocks. -/
theorem xbOf_succ (c : Dev nD) (n : ℕ) (hn : n + 1 < cfg0.N) (h0 : ¬(n + 1) % 5 = 0) :
    xbOf m c ⟨n + 1, hn⟩ = xbOf m c ⟨n, Nat.lt_of_succ_lt hn⟩ := by
  funext k
  unfold xbOf
  congr 1
  apply Fin.ext
  show min (n + 1 - (n + 1) % 5 + k) 79 = min (n - n % 5 + k) 79
  omega

/-- After point `n` the carried scratches are the fold over column blocks `0 … n % 5` of its row block. -/
theorem scr_inv (c : Dev nD) : ∀ (n : ℕ) (hn : n < cfg0.N),
    (outsAt0 m c n hn).2.1 = (scr (xbOf m c ⟨n, hn⟩) (n % 5)).1 ∧ (outsAt0 m c n hn).2.2 = (scr (xbOf m c ⟨n, hn⟩) (n % 5)).2
  | 0, hn => by
    have e := outsAt0_A m c ⟨0, hn⟩ (Nat.zero_mod 5) (fun h => by have : (0 : ℕ) % 5 = 4 := h; omega)
    have hx : xbOf m c ⟨0, hn⟩ 0 = xblk m c ⟨0, hn⟩ := xbOf_self m c ⟨0, hn⟩
    constructor
    · rw [show outsAt0 m c 0 hn = _ from e]; dsimp only
      rw [sout_A_0]
      show _ = (scr (xbOf m c ⟨0, hn⟩) 0).1
      rw [scr_zero]; dsimp only; rw [hx]
    · rw [show outsAt0 m c 0 hn = _ from e]; dsimp only
      rw [sout_A_1]
      show _ = (scr (xbOf m c ⟨0, hn⟩) 0).2
      rw [scr_zero]; dsimp only; rw [hx]
  | n + 1, hn => by
    have ih := scr_inv c n (Nat.lt_of_succ_lt hn)
    by_cases h0 : (n + 1) % 5 = 0
    · -- a first column block: both scratches restart
      have h1 : ¬(n + 1) % 5 = 4 := by omega
      have e := outsAt0_A m c ⟨n + 1, hn⟩ h0 h1
      have hx : xbOf m c ⟨n + 1, hn⟩ 0 = xblk m c ⟨n + 1, hn⟩ := by
        have := xbOf_self m c ⟨n + 1, hn⟩
        rwa [show (⟨n + 1, hn⟩ : Fin cfg0.N).val % 5 = 0 from h0] at this
      constructor
      · rw [show outsAt0 m c (n + 1) hn = _ from e]; dsimp only
        rw [sout_A_0, h0, scr_zero]; dsimp only; rw [hx]
      · rw [show outsAt0 m c (n + 1) hn = _ from e]; dsimp only
        rw [sout_A_1, h0, scr_zero]; dsimp only; rw [hx]
    · -- a later column block: the update of what the point before left
      have hk : (n + 1) % 5 = n % 5 + 1 := by omega
      have hx : xbOf m c ⟨n + 1, hn⟩ (n % 5 + 1) = xblk m c ⟨n + 1, hn⟩ := by
        have := xbOf_self m c ⟨n + 1, hn⟩
        rwa [show (⟨n + 1, hn⟩ : Fin cfg0.N).val % 5 = n % 5 + 1 from hk] at this
      have hb := xbOf_succ m c n hn h0
      obtain ⟨e1, e2⟩ := ih
      rw [← hb] at e1 e2
      by_cases h1 : (n + 1) % 5 = 4
      · have e := outsAt0_C m c ⟨n + 1, hn⟩ h0 h1
        constructor
        · rw [show outsAt0 m c (n + 1) hn = _ from e]; dsimp only
          rw [sout_C_0, hk, scr_succ]; dsimp only; rw [hx]
          exact congrArg (k0_pay5 (xblk m c ⟨n + 1, hn⟩)) e1
        · rw [show outsAt0 m c (n + 1) hn = _ from e]; dsimp only
          rw [sout_C_1, hk, scr_succ]; dsimp only; rw [hx]
          exact (congrArg (fun z => k0_pay4 (xblk m c ⟨n + 1, hn⟩) z z _) e1).trans (congrArg (k0_pay4 (xblk m c ⟨n + 1, hn⟩) _ _) e2)
      · have e := outsAt0_B m c ⟨n + 1, hn⟩ h0 h1
        constructor
        · rw [show outsAt0 m c (n + 1) hn = _ from e]; dsimp only
          rw [sout_B_0, hk, scr_succ]; dsimp only; rw [hx]
          exact congrArg (k0_pay5 (xblk m c ⟨n + 1, hn⟩)) e1
        · rw [show outsAt0 m c (n + 1) hn = _ from e]; dsimp only
          rw [sout_B_1, hk, scr_succ]; dsimp only; rw [hx]
          exact (congrArg (fun z => k0_pay4 (xblk m c ⟨n + 1, hn⟩) z z _) e1).trans (congrArg (k0_pay4 (xblk m c ⟨n + 1, hn⟩) _ _) e2)

/-- At a last column block the output block is the row block's `outBlk`. -/
theorem out_last (c : Dev nD) (t : Fin cfg0.N) (h4 : t.val % 5 = 4) :
    (outsAt0 m c t.val t.isLt).1 = outBlk (xbOf m c t) (tblk m c t) (wblk m c t) := by
  obtain ⟨n, hn⟩ := t
  have h4' : n % 5 = 4 := h4
  obtain ⟨k, rfl⟩ : ∃ k, n = k + 1 := ⟨n - 1, by omega⟩
  have h0 : ¬(k + 1) % 5 = 0 := by omega
  have e := outsAt0_C m c ⟨k + 1, hn⟩ h0 h4'
  obtain ⟨e1, e2⟩ := scr_inv m c k (Nat.lt_of_succ_lt hn)
  rw [← xbOf_succ m c k hn h0] at e1 e2
  have hk : k % 5 = 3 := by omega
  rw [hk] at e1 e2
  have hx : xbOf m c ⟨k + 1, hn⟩ 4 = xblk m c ⟨k + 1, hn⟩ := by
    have := xbOf_self m c ⟨k + 1, hn⟩
    rwa [show (⟨k + 1, hn⟩ : Fin cfg0.N).val % 5 = 4 from h4'] at this
  show (outsAt0 m c (k + 1) hn).1 = _
  rw [show outsAt0 m c (k + 1) hn = _ from e]; dsimp only
  rw [out_C_3]
  unfold outBlk
  rw [show (4 : ℕ) = 3 + 1 from rfl, scr_succ]; dsimp only
  rw [show (3 + 1 : ℕ) = 4 from rfl, hx]
  exact (congrArg (fun z => k0_pay6 (tblk m c ⟨k + 1, hn⟩) (k0_pay5 (xblk m c ⟨k + 1, hn⟩) z) (k0_pay4 (xblk m c ⟨k + 1, hn⟩) z z _) (wblk m c ⟨k + 1, hn⟩)) e1).trans
    (congrArg (fun z => k0_pay6 (tblk m c ⟨k + 1, hn⟩) (k0_pay5 (xblk m c ⟨k + 1, hn⟩) _) (k0_pay4 (xblk m c ⟨k + 1, hn⟩) _ _ z) (wblk m c ⟨k + 1, hn⟩)) e2)

end Cert.KernelIdeal.KV

end
-- ==== Proof.KBlocks.lean ====
/-
  From blocks to arrays. Point `t` of the grid is column block `t % 5` of row block `t / 5`: its logits block is rows
  `256·(t/5) …` and columns `6400·(t%5) …` of the logits, its label-logit and weight blocks rows `256·(t/5) …` of the two
  columns, and the output column is written back exactly at the last column block of each row block. So the output column ends
  as ONE function of the row: row `r` holds entry `r % 256` of the output block of row block `r / 256`.
-/
import proofs.«405151_j91018946937483_3_alg».proof.Proof.KInv
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The printed index maps, decided over the grid: every window's row-block index is `t / 5`, the logits' column-block
    index is `t % 5`, the three columns' is 0. -/
theorem idx_facts : ∀ t : Fin cfg0.N,
    win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0
    ∧ win0_3.index t (0 : Fin 2) = t.val / 5 ∧ win0_3.index t (1 : Fin 2) = 0 :=
  (by decide +kernel : ∀ t : Fin grid0.N, _)

/-- The output column is written back exactly at the last column block of a row block. -/
theorem flush_iff : ∀ t : Fin cfg0.N, (cfg0.win 3).flush t = true ↔ t.val % 5 = 4 :=
  (by decide +kernel : ∀ t : Fin grid0.N, _)

/-- Row `p` of the blocks at point `t`, as a row of the arrays. -/
def rowOf (t : Fin cfg0.N) (p : Fin 256) : Fin 4096 :=
  ⟨256 * (t.val / 5) + p.val, by have := lt_of_lt_of_eq t.isLt N80; have := p.isLt; omega⟩

/-- Column `q` of the logits block at point `t`, as a column of the logits. -/
def colOf (t : Fin cfg0.N) (q : Fin 6400) : Fin 32000 :=
  ⟨6400 * (t.val % 5) + q.val, by have := q.isLt; omega⟩

/-- The logits block read at an entry. -/
theorem xblk_apply (c : Dev nD) (t : Fin cfg0.N) (p : Fin 256) (q : Fin 6400) :
    xblk m c t (ix2 p q) = V m c main_arg0 (ix2 (rowOf t p) (colOf t q)) := by
  obtain ⟨e0, e1, -⟩ := idx_facts t
  show V m c main_arg0 (((cfg0.win 0).blk t).view.emb (ix2 p q)) = V m c main_arg0 (ix2 (rowOf t p) (colOf t q))
  congr 1
  funext a; apply Fin.ext
  match a with
  | ⟨0, _⟩ => show win0_0.index t (0 : Fin 2) * 256 + 1 * p.val = 256 * (t.val / 5) + p.val; omega
  | ⟨1, _⟩ => show win0_0.index t (1 : Fin 2) * 6400 + 1 * q.val = 6400 * (t.val % 5) + q.val; omega

/-- The label-logit block read at an entry. -/
theorem tblk_apply (c : Dev nD) (t : Fin cfg0.N) (p : Fin 256) (u : Fin 1) :
    tblk m c t (ix2 p u) = V m c main_v17 (ix2 (rowOf t p) u) := by
  obtain ⟨-, -, e0, e1, -⟩ := idx_facts t
  show V m c main_v17 (((cfg0.win 1).blk t).view.emb (ix2 p u)) = V m c main_v17 (ix2 (rowOf t p) u)
  congr 1
  funext a; apply Fin.ext
  match a with
  | ⟨0, _⟩ => show win0_1.index t (0 : Fin 2) * 256 + 1 * p.val = 256 * (t.val / 5) + p.val; omega
  | ⟨1, _⟩ => show win0_1.index t (1 : Fin 2) * 1 + 1 * u.val = u.val; omega

/-- The weight block read at an entry. -/
theorem wblk_apply (c : Dev nD) (t : Fin cfg0.N) (p : Fin 256) (u : Fin 1) :
    wblk m c t (ix2 p u) = V m c main_v18 (ix2 (rowOf t p) u) := by
  obtain ⟨-, -, -, -, e0, e1, -⟩ := idx_facts t
  show V m c main_v18 (((cfg0.win 2).blk t).view.emb (ix2 p u)) = V m c main_v18 (ix2 (rowOf t p) u)
  congr 1
  funext a; apply Fin.ext
  match a with
  | ⟨0, _⟩ => show win0_2.index t (0 : Fin 2) * 256 + 1 * p.val = 256 * (t.val / 5) + p.val; omega
  | ⟨1, _⟩ => show win0_2.index t (1 : Fin 2) * 1 + 1 * u.val = u.val; omega

/-- The point that writes row `r` of the output column back: the last column block of its row block. -/
def ptOf (r : Fin 4096) : Fin cfg0.N :=
  ⟨5 * (r.val / 256) + 4, lt_of_lt_of_eq (by have := r.isLt; omega : 5 * (r.val / 256) + 4 < 80) N80.symm⟩

/-- Row `r`'s place inside its row block. -/
def inBlk (r : Fin 4096) : Fin 256 := ⟨r.val % 256, Nat.mod_lt _ (by decide)⟩

/-- The output column after the run, as one function of the row. -/
def outCol (c : Dev nD) : S4096x1.Idx → Elt F .f32 := fun i =>
  outBlk (xbOf m c (ptOf (i 0))) (tblk m c (ptOf (i 0))) (wblk m c (ptOf (i 0))) (ix2 (inBlk (i 0)) (i 1))

/-- What a flushing point writes back is its block of `outCol`. -/
theorem flushed3_eq (c : Dev nD) (t : Fin cfg0.N) (hf : (cfg0.win 3).flush t = true) :
    (dats m 0 c).flushed 3 t = ((cfg0.win 3).blk t).view.read (Elt F) (outCol m c) := by
  have h4 : t.val % 5 = 4 := (flush_iff t).mp hf
  obtain ⟨-, -, -, -, -, -, e0, e1⟩ := idx_facts t
  show (cfg0.win 3).cut (grid0.coords t) ((dats m 0 c).after 3 t) = _
  rw [after0_3, out_last m c t h4]
  funext j
  obtain ⟨p, u, rfl⟩ : ∃ (p : Fin 256) (u : Fin 1), j = ix2 p u := ⟨j 0, j 1, eq_ix2 j⟩
  show outBlk (xbOf m c t) (tblk m c t) (wblk m c t) (ix2 p u) = outCol m c (((cfg0.win 3).blk t).view.emb (ix2 p u))
  have hemb : ((cfg0.win 3).blk t).view.emb (ix2 p u) = ix2 (rowOf t p) u := by
    funext a; apply Fin.ext
    match a with
    | ⟨0, _⟩ => show win0_3.index t (0 : Fin 2) * 256 + 1 * p.val = 256 * (t.val / 5) + p.val; omega
    | ⟨1, _⟩ => show win0_3.index t (1 : Fin 2) * 1 + 1 * u.val = u.val; omega
  rw [hemb]
  unfold outCol
  have hpt : ptOf (rowOf t p) = t := by
    apply Fin.ext
    show 5 * ((256 * (t.val / 5) + p.val) / 256) + 4 = t.val
    have := p.isLt; omega
  have hin : inBlk (rowOf t p) = p := by
    apply Fin.ext
    show (256 * (t.val / 5) + p.val) % 256 = p.val
    have := p.isLt; omega
  show _ = outBlk (xbOf m c (ptOf (rowOf t p))) (tblk m c (ptOf (rowOf t p))) (wblk m c (ptOf (rowOf t p))) (ix2 (inBlk (rowOf t p)) u)
  rw [hpt, hin]

/-- An index of the output column is in point `t`'s block iff its coordinates are in the block's ranges. -/
theorem mem_blk3 (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v19).slice (win0_3.rect t)).set ↔ _
  rw [View.set_slice_whole, Rect.mem_set_unit]
  exact Iff.rfl

/-- Every row of the output column is in the block of the point that writes it back. -/
theorem cover3 (i : S4096x1.Idx) : ∃ t : Fin cfg0.N, (cfg0.win 3).flush t = true ∧ i ∈ ((cfg0.win 3).blk t).view.set := by
  refine ⟨ptOf (i 0), (flush_iff _).mpr (by show (5 * ((i 0).val / 256) + 4) % 5 = 4; omega), ?_⟩
  obtain ⟨-, -, -, -, -, -, e0, e1⟩ := idx_facts (ptOf (i 0))
  have hpt : (ptOf (i 0)).val = 5 * ((i 0).val / 256) + 4 := rfl
  have hi0 : (i 0).val < 4096 := (i 0).isLt
  have hi1 : (i 1).val < 1 := (i 1).isLt
  rw [mem_blk3]
  intro a
  match a with
  | ⟨0, _⟩ => show win0_3.index (ptOf (i 0)) (0 : Fin 2) * 256 ≤ (i 0).val ∧ (i 0).val < win0_3.index (ptOf (i 0)) (0 : Fin 2) * 256 + 256; omega
  | ⟨1, _⟩ => show win0_3.index (ptOf (i 0)) (1 : Fin 2) * 1 ≤ (i 1).val ∧ (i 1).val < win0_3.index (ptOf (i 0)) (1 : Fin 2) * 1 + 1; omega

/-- The output column after the run. -/
theorem final3 (c : Dev nD) : (dats m 0 c).arrAt 3 cfg0.N = outCol m c :=
  (dats m 0 c).arrAt_eq_of_cover 3 (outCol m c) (fun t hf => flushed3_eq m c t hf) cover3

end Cert.KernelIdeal.KV

end
-- ==== Proof.LibTakeAlong.lean ====
/-
  `take_along_axis` along the last axis of a matrix, read at an entry.

  jnp's `take_along_axis(x, idx[:, None], axis=1)` over a matrix `x : [R, C]` prints as a `stablehlo.gather` whose
  start indices are the `[R, 1, 1]` array of column numbers, whose row axis is a batching axis of both operand and
  start indices, whose column axis is collapsed and start-indexed, with no offset axes and the index vector on
  axis 2. Entry `(p, u)` of the result reads row `p` of the matrix at row `p`'s start index, read signed and
  clamped into the row: a negative index reads column 0, one past the end reads the last column.
-/
import Idealize.ShloMosaic.PureOps
import Idealize.ShloMosaic.Lib.ValueIdx

namespace Cert.LibTakeAlong

open Idealize.ShloMosaic Idealize.ShloMosaic.ValueIdx

variable {α : Type}

/-- The dimension numbers of the gather described above, at a matrix of `R` rows and `C` columns. -/
abbrev alongDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Entry `(p, u)` of the gather is the matrix at row `p` and the column row `p`'s start index names, clamped. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (p : Fin R) (u : Fin 1) :
    Host.gather (alongDims R C wf) x idx (ix2 p u)
      = x (ix2 p ⟨min (idx (ix3 p u (0 : Fin 1))).toInt.toNat (C - 1), by omega⟩) := by
  unfold Host.gather
  congr 1
  funext a
  refine Fin.ext ?_
  match a with
  | ⟨0, _⟩ =>
    -- the row axis is a batching axis: no start, no offset, the batch coordinate is the result's row
    show (alongDims R C wf).start (ix2 p u) idx 0 + (alongDims R C wf).batchCoord (ix2 p u) 0
        + (alongDims R C wf).offCoord (ix2 p u) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    -- the column axis is collapsed and start-indexed: the clamped start index, nothing else
    show (alongDims R C wf).start (ix2 p u) idx 1 + (alongDims R C wf).batchCoord (ix2 p u) 1
        + (alongDims R C wf).offCoord (ix2 p u) 1 = min (idx (ix3 p u (0 : Fin 1))).toInt.toNat (C - 1)
    rw [GatherDims.batchCoord_eq_zero _ _ _ (fun h => absurd (congrArg Fin.val (List.mem_singleton.mp h)) (Nat.succ_ne_zero 0)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 p u) ⟨List.idxOf (1 : Fin 2) (alongDims R C wf).startIndexMap,
        List.idxOf_lt_length_iff.2 (List.mem_singleton.mpr rfl)⟩ = ix3 p u (0 : Fin 1) := by
      funext b; refine Fin.ext ?_
      match b with
      | ⟨0, _⟩ => rfl
      | ⟨1, _⟩ => rfl
      | ⟨2, _⟩ => rfl
    rw [hsi]
    rfl

end Cert.LibTakeAlong
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.HostFns.lean ====
/-
  The index chains both programs apply to the labels, as functions, and what they read at an entry when the label is a
  column number of the table (0 ≤ label < 32000): jnp's wrap of a negative position is then the identity, a clip into
  [0, 31999] likewise, the range mask of `take_along_axis` is set, and each gather reads the labelled column.
-/
import Idealize.ShloMosaic.PureOps
import Idealize.ShloMosaic.PureOps.Ideal
import Idealize.ShloMosaic.Lib.ValueIdx
import Idealize.ShloMosaic.Lib.StableHlo.Predicate
import proofs.«405151_j91018946937483_3_alg».proof.Proof.LibTakeAlong
import proofs.«405151_j91018946937483_3_alg».proof.Proof.LibColumn

noncomputable section

namespace Cert.HostFns

open Idealize.ShloMosaic Idealize.ShloMosaic.ValueIdx

abbrev S_ : Shape := ⟨0, ![]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S4096x1x1 : Shape := ⟨3, ![4096, 1, 1]⟩
abbrev S32000 : Shape := ⟨1, ![32000]⟩
abbrev S4096x32000 : Shape := ⟨2, ![4096, 32000]⟩

variable {α : Type}

/-! ### Words and the signed order -/

/-- A word that is not negative is not below zero in the signed order. -/
theorem slt_zero_false {v : BitVec 32} (h0 : 0 ≤ v.toInt) : v.slt 0#32 = false := by
  simp only [BitVec.slt, BitVec.toInt_zero, decide_eq_false_iff_not, not_lt]
  exact h0

/-- Zero is at most a word that is not negative. -/
theorem zero_sle_true {v : BitVec 32} (h0 : 0 ≤ v.toInt) : (0#32 : BitVec 32).sle v = true := by
  simp only [BitVec.sle, BitVec.toInt_zero, decide_eq_true_eq]
  exact h0

theorem toInt_31999 : (31999#32 : BitVec 32).toInt = 31999 := by decide

/-- 31999 is not below a word under 32000. -/
theorem last_slt_false {v : BitVec 32} (h1 : v.toInt < 32000) : (31999#32 : BitVec 32).slt v = false := by
  simp only [BitVec.slt, toInt_31999, decide_eq_false_iff_not, not_lt]
  omega

/-- A word under 32000 is at most 31999. -/
theorem sle_last_true {v : BitVec 32} (h1 : v.toInt < 32000) : v.sle (31999#32 : BitVec 32) = true := by
  simp only [BitVec.sle, toInt_31999, decide_eq_true_eq]
  omega

/-! ### A reduction by `and` of a mask that is set wherever it is read -/

/-- A left fold by `and` from 1 over elements that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A `stablehlo.reduce` by `and` from 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  have := (List.mem_filter.1 hi).2
  simpa using this

/-- jnp's reading of a negative position: `p < 0 ? p + 32000 : p`. -/
def wrap {s : Shape} (hb : S_.BroadcastsInDim s (![] : Fin 0 → Fin s.rank)) (v : IVec s 32) : IVec s 32 :=
  select (cmpi .slt v (broadcastInDim s ![] hb (constantI S_ 32 0#32)))
    (addi v (broadcastInDim s ![] hb (constantI S_ 32 32000#32))) v

/-- A non-negative position is not moved. -/
theorem wrap_apply {s : Shape} (hb : S_.BroadcastsInDim s (![] : Fin 0 → Fin s.rank)) (v : IVec s 32) (i : s.Idx)
    (h0 : 0 ≤ (v i).toInt) : wrap hb v i = v i := by
  show Scalar.select (BitVec.ofBool ((v i).slt 0#32)) (IntOp.addi (v i) 32000#32) (v i) = v i
  rw [slt_zero_false h0]
  rfl

/-- The clip of the labels into [0, 31999]. -/
def clip (hb : S_.BroadcastsInDim S4096 (![] : Fin 0 → Fin S4096.rank)) (t : IVec S4096 32) : IVec S4096 32 :=
  minsi (broadcastInDim S4096 ![] hb (constantI S_ 32 31999#32)) (maxsi (broadcastInDim S4096 ![] hb (constantI S_ 32 0#32)) t)

/-- A label in range is not moved. -/
theorem clip_apply (hb : S_.BroadcastsInDim S4096 (![] : Fin 0 → Fin S4096.rank)) (t : IVec S4096 32) (i : S4096.Idx)
    (h0 : 0 ≤ (t i).toInt) (h1 : (t i).toInt < 32000) : clip hb t i = t i := by
  have hmax : IntOp.maxsi 0#32 (t i) = t i := by
    unfold IntOp.maxsi
    rw [slt_zero_false h0]
    rfl
  have hmin : IntOp.minsi 31999#32 (t i) = t i := by
    unfold IntOp.minsi
    rw [last_slt_false h1]
    rfl
  show IntOp.minsi 31999#32 (IntOp.maxsi 0#32 (t i)) = t i
  rw [hmax, hmin]

/-- `take_along_axis(x, idx, axis=1)` as it prints: the wrapped positions as a [4096, 1, 1] start-index array, the mask
    `0 ≤ p ≤ 31999`, the gather, and `fill` where the mask is clear. -/
def takeAlong (hb : S_.BroadcastsInDim S4096x1 (![] : Fin 0 → Fin S4096x1.rank)) (hc : S4096x1.ShapeCasts S4096x1x1)
    (hb3 : S_.BroadcastsInDim S4096x1x1 (![] : Fin 0 → Fin S4096x1x1.rank))
    (hb1 : S1.BroadcastsInDim S1x1x1 (![2] : Fin 1 → Fin S1x1x1.rank))
    (hb111 : S1x1x1.BroadcastsInDim S4096x1x1 (![0, 1, 2] : Fin 3 → Fin S4096x1x1.rank))
    (hr : S4096x1x1.ReducesTo [2] S4096x1) (hn : 0 < S_.numel)
    (d : GatherDims S4096x32000 S4096x1x1 S4096x1) (x : S4096x32000.Idx → α) (fill : S4096x1.Idx → α) (idx : IVec S4096x1 32) :
    S4096x1.Idx → α :=
  select
    (Host.reduce IntOp.andi
      (andi (cmpi .sge (shapeCast S4096x1x1 (wrap hb idx) hc) (broadcastInDim S4096x1x1 ![] hb3 (constantI S_ 32 0#32)))
        (cmpi .sle (shapeCast S4096x1x1 (wrap hb idx) hc)
          (broadcastInDim S4096x1x1 ![0, 1, 2] hb111 (broadcastInDim S1x1x1 ![2] hb1 (constantI S1 32 31999#32)))))
      (constantI S_ 1 1#1) hr hn)
    (Host.gather d x (shapeCast S4096x1x1 (wrap hb idx) hc)) fill

/-- With row `r`'s position a column number, entry `(r, u)` is the matrix at row `r` and that column (written clamped, as a
    gather reads it). -/
theorem takeAlong_apply (hb : S_.BroadcastsInDim S4096x1 (![] : Fin 0 → Fin S4096x1.rank)) (hc : S4096x1.ShapeCasts S4096x1x1)
    (hb3 : S_.BroadcastsInDim S4096x1x1 (![] : Fin 0 → Fin S4096x1x1.rank))
    (hb1 : S1.BroadcastsInDim S1x1x1 (![2] : Fin 1 → Fin S1x1x1.rank))
    (hb111 : S1x1x1.BroadcastsInDim S4096x1x1 (![0, 1, 2] : Fin 3 → Fin S4096x1x1.rank))
    (hr : S4096x1x1.ReducesTo [2] S4096x1) (hn : 0 < S_.numel)
    (wf : GatherDims.WF S4096x32000 S4096x1x1 S4096x1 [] [1] [0] [1] [0] 2 ![1, 1])
    (x : S4096x32000.Idx → α) (fill : S4096x1.Idx → α) (idx : IVec S4096x1 32) (r : Fin 4096) (u : Fin 1)
    (h0 : 0 ≤ (idx (ix2 r (0 : Fin 1))).toInt) (h1 : (idx (ix2 r (0 : Fin 1))).toInt < 32000) :
    takeAlong hb hc hb3 hb1 hb111 hr hn (Cert.LibTakeAlong.alongDims 4096 32000 wf) x fill idx (ix2 r u)
      = x (ix2 r ⟨min (idx (ix2 r (0 : Fin 1))).toInt.toNat (32000 - 1), by omega⟩) := by
  -- the start indices at any entry of row r are row r's position, which the wrap does not move
  have hsc : ∀ i3 : S4096x1x1.Idx, i3 0 = r →
      shapeCast S4096x1x1 (wrap hb idx) hc i3 = idx (ix2 r (0 : Fin 1)) := by
    intro i3 hi
    rw [shapeCast_apply (wrap hb idx) hc i3 (ix2 r (0 : Fin 1)) (by
      rw [Shape.rowMajor_val_two, Shape.rowMajor_val_three]
      show r.val * 1 + 0 = ((i3 0).val * 1 + (i3 1).val) * 1 + (i3 2).val
      have e0 : (i3 0).val = r.val := congrArg Fin.val hi
      have e1 : (i3 1).val = 0 := Nat.lt_one_iff.1 (i3 1).isLt
      have e2 : (i3 2).val = 0 := Nat.lt_one_iff.1 (i3 2).isLt
      omega)]
    exact wrap_apply hb idx _ h0
  -- so the range mask is set on row r
  have hmask : Host.reduce IntOp.andi
      (andi (cmpi .sge (shapeCast S4096x1x1 (wrap hb idx) hc) (broadcastInDim S4096x1x1 ![] hb3 (constantI S_ 32 0#32)))
        (cmpi .sle (shapeCast S4096x1x1 (wrap hb idx) hc)
          (broadcastInDim S4096x1x1 ![0, 1, 2] hb111 (broadcastInDim S1x1x1 ![2] hb1 (constantI S1 32 31999#32)))))
      (constantI S_ 1 1#1) hr hn (ix2 r u) = 1#1 := by
    refine reduce_andi_one _ _ hr hn _ rfl fun i3 hi => ?_
    have hrow : i3 0 = r := by
      have hv : (hr.drop i3 0 : Nat) = i3 0 := Shape.ReducesTo.drop_apply_val hr i3 0
      rw [hi] at hv
      exact Fin.ext hv.symm
    show IntOp.andi (BitVec.ofBool ((0#32 : BitVec 32).sle (shapeCast S4096x1x1 (wrap hb idx) hc i3)))
      (BitVec.ofBool ((shapeCast S4096x1x1 (wrap hb idx) hc i3).sle 31999#32)) = 1#1
    rw [hsc i3 hrow, zero_sle_true h0, sle_last_true h1]
    decide
  show Scalar.select (Host.reduce IntOp.andi _ (constantI S_ 1 1#1) hr hn (ix2 r u))
    (Host.gather (Cert.LibTakeAlong.alongDims 4096 32000 wf) x (shapeCast S4096x1x1 (wrap hb idx) hc) (ix2 r u))
    (fill (ix2 r u)) = _
  rw [hmask, Cert.LibTakeAlong.gather_along_apply (by decide) wf x _ r u]
  show x _ = x _
  congr 3
  exact congrArg (fun v : BitVec 32 => min v.toInt.toNat (32000 - 1)) (hsc (ix3 r u (0 : Fin 1)) rfl)

/-- jnp's `w[t]` over a rank-1 table as it prints: the wrapped labels as a [4096, 1] column of start indices, the gather. -/
def take1 (hb : S_.BroadcastsInDim S4096 (![] : Fin 0 → Fin S4096.rank))
    (hbc : S4096.BroadcastsInDim S4096x1 (![0] : Fin 1 → Fin S4096x1.rank))
    (d : GatherDims S32000 S4096x1 S4096) (w : S32000.Idx → α) (t : IVec S4096 32) : S4096.Idx → α :=
  Host.gather d w (broadcastInDim S4096x1 ![0] hbc (wrap hb t))

/-- With label `r` a column number, entry `r` is the table at that column (written clamped). -/
theorem take1_apply (hb : S_.BroadcastsInDim S4096 (![] : Fin 0 → Fin S4096.rank))
    (hbc : S4096.BroadcastsInDim S4096x1 (![0] : Fin 1 → Fin S4096x1.rank))
    (d : GatherDims S32000 S4096x1 S4096) (hcoll : d.collapsedSliceDims = [0]) (hob : d.operandBatchingDims = [])
    (hsim : d.startIndexMap = [0]) (hivd : d.indexVectorDim = 1)
    (w : S32000.Idx → α) (t : IVec S4096 32) (r : Fin 4096)
    (h0 : 0 ≤ (t (ix1 r)).toInt) (h1 : (t (ix1 r)).toInt < 32000) :
    take1 hb hbc d w t (ix1 r) = w (ix1 ⟨min (t (ix1 r)).toInt.toNat (32000 - 1), by omega⟩) := by
  have hof : ∀ {n : Nat} (k : Fin n), (ix1 k : (⟨1, ![n]⟩ : Shape).Idx) = Shape.Idx.ofFin k := fun k => by
    funext a; match a with | ⟨0, _⟩ => rfl
  have hP : (StableHlo.Predicate.ixP r : S4096x1.Idx) = ix2 r (0 : Fin 1) := by
    funext a; match a with | ⟨0, _⟩ => rfl | ⟨1, _⟩ => rfl
  -- two equal start indices read the same entry
  have key : ∀ a b : BitVec 32, a = b → ∀ ha hb,
      w (ix1 (⟨min a.toInt.toNat (32000 - 1), ha⟩ : Fin 32000)) = w (ix1 ⟨min b.toInt.toNat (32000 - 1), hb⟩) := by
    intro a b e
    subst e
    intro _ _
    rfl
  have hg := StableHlo.Predicate.gather_take d hcoll hob hsim hivd w (broadcastInDim S4096x1 ![0] hbc (wrap hb t)) r
    (by decide)
  rw [← hof r, ← hof] at hg
  refine hg.trans (key _ _ ?_ _ _)
  rw [hP, Cert.LibColumn.broadcastInDim_a_a1_apply (wrap hb t) hbc r 0, wrap_apply hb t _ h0]

variable {F : FTy → Type} [FloatOps F]

/-- The class weights: the counts normalised, squared (the power with exponent word 2.0), normalised again. -/
def wvec (hr : S32000.ReducesTo [0] S_) (hn : 0 < S_.numel) (hb : S_.BroadcastsInDim S32000 (![] : Fin 0 → Fin S32000.rank))
    (cc : FVec F S32000 .f32) : FVec F S32000 .f32 :=
  Host.divf
    (Host.powf (Host.divf cc (broadcastInDim S32000 ![] hb (Host.reduceAdd cc (constant S_ .f32 0x00000000#32) hr hn)))
      (broadcastInDim S32000 ![] hb (constant S_ .f32 0x40000000#32)))
    (broadcastInDim S32000 ![] hb
      (Host.reduceAdd
        (Host.powf (Host.divf cc (broadcastInDim S32000 ![] hb (Host.reduceAdd cc (constant S_ .f32 0x00000000#32) hr hn)))
          (broadcastInDim S32000 ![] hb (constant S_ .f32 0x40000000#32)))
        (constant S_ .f32 0x00000000#32) hr hn))

end Cert.HostFns

end
-- ==== Proof.KHost.lean ====
/-
  The host side of the kernel program. Before the region: the labels clipped into [0, 31999], the class weights, and
  the two columns the region reads — the label logits (the logits taken along the clipped labels) and the label
  weights (the class weights taken at the clipped labels). After the region: the mean of the output column. Each is
  read off the program's host operations as one term of the argument arrays.
-/
import proofs.«405151_j91018946937483_3_alg».proof.Proof.KBlocks
import proofs.«405151_j91018946937483_3_alg».proof.Proof.HostFns
import Idealize.ShloMosaic.Lib.StableHlo.Run

set_option maxRecDepth 16384

noncomputable section

namespace Cert.KernelIdeal.KV

open Idealize.ShloMosaic Idealize.ShloMosaic.TcCoe Idealize.ShloMosaic.StableHlo
open Idealize.SL.Sem
open Cert.KernelIdeal Cert.KernelIdeal.Gen

variable {F : FTy → Type} [FloatOps F]

/-- The clip's six operations over their buffers. -/
abbrev hostOps0_1' : List (HloOp τ sig (Elt F)) :=
  [ StableHlo.unary main_c main_call0_v0 (id : (⟨S_, .i32⟩ : BufTy).Contents (Elt F) → (⟨S_, .i32⟩ : BufTy).Contents (Elt F)),
    StableHlo.unary main_call0_v0 main_call0_v1 (broadcastInDim S4096 ![] bcast_S_S4096 : (⟨S_, .i32⟩ : BufTy).Contents (Elt F) → (⟨S4096, .i32⟩ : BufTy).Contents (Elt F)),
    StableHlo.binary main_call0_v1 main_arg1 main_call0_v2 (maxsi : (⟨S4096, .i32⟩ : BufTy).Contents (Elt F) → (⟨S4096, .i32⟩ : BufTy).Contents (Elt F) → (⟨S4096, .i32⟩ : BufTy).Contents (Elt F)),
    StableHlo.unary main_c_0 main_call0_v3 (id : (⟨S_, .i32⟩ : BufTy).Contents (Elt F) → (⟨S_, .i32⟩ : BufTy).Contents (Elt F)),
    StableHlo.unary main_call0_v3 main_call0_v4 (broadcastInDim S4096 ![] bcast_S_S4096 : (⟨S_, .i32⟩ : BufTy).Contents (Elt F) → (⟨S4096, .i32⟩ : BufTy).Contents (Elt F)),
    StableHlo.binary main_call0_v4 main_call0_v2 main_v0 (minsi : (⟨S4096, .i32⟩ : BufTy).Contents (Elt F) → (⟨S4096, .i32⟩ : BufTy).Contents (Elt F) → (⟨S4096, .i32⟩ : BufTy).Contents (Elt F)) ]

/-- They are the program's (spelt there through typed references, which are these with casts along `rfl`). -/
theorem ops1_eq : (hostOps0_1 : List (HloOp τ sig (Elt F))) = hostOps0_1' := by
  simp only [hostOps0_1, hostOps0_1', TRef.nullary, TRef.unary, TRef.binary, TRef.ternary, TRef.reshape, TRef.ofBuf, TRef.toBuf, TRef.of, cast_eq]

/-- `take_along_axis`'s twenty-two operations over their buffers. -/
abbrev hostOps0_3' : List (HloOp τ sig (Elt F)) :=
  [ StableHlo.nullary main_call1_c (constantI S_ 32 0#32),
    StableHlo.unary main_call1_c main_call1_v0 (broadcastInDim S4096x1 ![] bcast_S_S4096x1 : (⟨S_, .i32⟩ : BufTy).Contents (Elt F) → (⟨S4096x1, .i32⟩ : BufTy).Contents (Elt F)),
    StableHlo.binary main_v16 main_call1_v0 main_call1_v1 (cmpi .slt : (⟨S4096x1, .i32⟩ : BufTy).Contents (Elt F) → (⟨S4096x1, .i32⟩ : BufTy).Contents (Elt F) → (⟨S4096x1, .i1⟩ : BufTy).Contents (Elt F)),
    StableHlo.nullary main_call1_c_0 (constantI S_ 32 32000#32),
    StableHlo.unary main_call1_c_0 main_call1_v2 (broadcastInDim S4096x1 ![] bcast_S_S4096x1 : (⟨S_, .i32⟩ : BufTy).Contents (Elt F) → (⟨S4096x1, .i32⟩ : BufTy).Contents (Elt F)),
    StableHlo.binary main_v16 main_call1_v2 main_call1_v3 (addi : (⟨S4096x1, .i32⟩ : BufTy).Contents (Elt F) → (⟨S4096x1, .i32⟩ : BufTy).Contents (Elt F) → (⟨S4096x1, .i32⟩ : BufTy).Contents (Elt F)),
    StableHlo.ternary main_call1_v1 main_call1_v3 main_v16 main_call1_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.reshape main_call1_v4 main_call1_v5 rfl shapeCasts_S4096x1_S4096x1x1,
    StableHlo.nullary main_call1_c_1 (constantI S1 32 31999#32),
    StableHlo.nullary main_call1_c_2 (constantI S_ 32 0#32),
    StableHlo.unary main_call1_c_2 main_call1_v6 (broadcastInDim S4096x1x1 ![] bcast_S_S4096x1x1 : (⟨S_, .i32⟩ : BufTy).Contents (Elt F) → (⟨S4096x1x1, .i32⟩ : BufTy).Contents (Elt F)),
    StableHlo.binary main_call1_v5 main_call1_v6 main_call1_v7 (cmpi .sge : (⟨S4096x1x1, .i32⟩ : BufTy).Contents (Elt F) → (⟨S4096x1x1, .i32⟩ : BufTy).Contents (Elt F) → (⟨S4096x1x1, .i1⟩ : BufTy).Contents (Elt F)),
    StableHlo.unary main_call1_c_1 main_call1_v8 (broadcastInDim S1x1x1 ![2] bcast_S1_S1x1x1_2 : (⟨S1, .i32⟩ : BufTy).Contents (Elt F) → (⟨S1x1x1, .i32⟩ : BufTy).Contents (Elt F)),
    StableHlo.unary main_call1_v8 main_call1_v9 (broadcastInDim S4096x1x1 ![0, 1, 2] bcast_S1x1x1_S4096x1x1_0_1_2 : (⟨S1x1x1, .i32⟩ : BufTy).Contents (Elt F) → (⟨S4096x1x1, .i32⟩ : BufTy).Contents (Elt F)),
    StableHlo.binary main_call1_v5 main_call1_v9 main_call1_v10 (cmpi .sle : (⟨S4096x1x1, .i32⟩ : BufTy).Contents (Elt F) → (⟨S4096x1x1, .i32⟩ : BufTy).Contents (Elt F) → (⟨S4096x1x1, .i1⟩ : BufTy).Contents (Elt F)),
    StableHlo.binary main_call1_v7 main_call1_v10 main_call1_v11 (andi : (⟨S4096x1x1, .i1⟩ : BufTy).Contents (Elt F) → (⟨S4096x1x1, .i1⟩ : BufTy).Contents (Elt F) → (⟨S4096x1x1, .i1⟩ : BufTy).Contents (Elt F)),
    StableHlo.nullary main_call1_c_3 (constantI S_ 1 1#1),
    StableHlo.binary main_call1_v11 main_call1_c_3 main_call1_v12 (fun x v => Host.reduce IntOp.andi x v reducesTo_S4096x1x1_S4096x1_d2 h_S_ : (⟨S4096x1x1, .i1⟩ : BufTy).Contents (Elt F) → (⟨S_, .i1⟩ : BufTy).Contents (Elt F) → (⟨S4096x1, .i1⟩ : BufTy).Contents (Elt F)),
    StableHlo.binary main_arg0 main_call1_v5 main_call1_v13 (fun x i => Host.gather gather_S4096x32000_S4096x1x1_S4096x1_n_1_0_0_1_2_11 x i : (⟨S4096x32000, .f32⟩ : BufTy).Contents (Elt F) → (⟨S4096x1x1, .i32⟩ : BufTy).Contents (Elt F) → (⟨S4096x1, .f32⟩ : BufTy).Contents (Elt F)),
    StableHlo.nullary main_call1_cst (constant S_ .f32 0x7FC00000#32),
    StableHlo.unary main_call1_cst main_call1_v14 (broadcastInDim S4096x1 ![] bcast_S_S4096x1 : (⟨S_, .f32⟩ : BufTy).Contents (Elt F) → (⟨S4096x1, .f32⟩ : BufTy).Contents (Elt F)),
    StableHlo.ternary main_call1_v12 main_call1_v13 main_call1_v14 main_v17 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) ]

/-- They are the program's. -/
theorem ops3_eq : (hostOps0_3 : List (HloOp τ sig (Elt F))) = hostOps0_3' := by
  simp only [hostOps0_3, hostOps0_3', TRef.nullary, TRef.unary, TRef.binary, TRef.ternary, TRef.reshape, TRef.ofBuf, TRef.toBuf, TRef.of, cast_eq]
  rfl

variable (m : (ℓ : Loc nD τ sig) → Buf (Elt F) ℓ)

/-- The labels clipped into [0, 31999]. -/
abbrev clipT (c : Dev nD) : IVec S4096 32 := Cert.HostFns.clip bcast_S_S4096 (m ((c : Thread nD τ).loc main_arg1))

/-- The class weights. -/
abbrev wK (c : Dev nD) : FVec F S32000 .f32 :=
  Cert.HostFns.wvec reducesTo_S32000_S_d0 h_S_ bcast_S_S32000 (m ((c : Thread nD τ).loc main_arg2))

set_option maxHeartbeats 4000000 in
/-- The label-logit column the region reads: the logits taken along the clipped labels. -/
theorem V_v17 (c : Dev nD) : V m c main_v17
    = Cert.HostFns.takeAlong bcast_S_S4096x1 shapeCasts_S4096x1_S4096x1x1 bcast_S_S4096x1x1 bcast_S1_S1x1x1_2
        bcast_S1x1x1_S4096x1x1_0_1_2 reducesTo_S4096x1x1_S4096x1_d2 h_S_
        (Cert.LibTakeAlong.alongDims 4096 32000 gather_S4096x32000_S4096x1x1_S4096x1_n_1_0_0_1_2_11_wf)
        (m ((c : Thread nD τ).loc main_arg0))
        (broadcastInDim S4096x1 ![] bcast_S_S4096x1 (constant S_ .f32 0x7FC00000#32))
        (broadcastInDim S4096x1 ![0] bcast_S4096_S4096x1_0 (clipT m c)) := by
  show StableHlo.after (List.flatten [hostOps0, hostOps0_1, hostOps0_2, hostOps0_3, hostOps0_4]) (fun b => m (c, b)) (Proc.devRef .tc main_v17) = _
  rw [ops1_eq, ops3_eq]
  simp only [hostOps0, hostOps0_1', hostOps0_2, hostOps0_3', hostOps0_4, List.flatten_cons, List.flatten_nil, List.append_nil, List.cons_append,
    List.nil_append]
  after_results_simp
  rfl

set_option maxHeartbeats 4000000 in
/-- The label-weight column the region reads: the class weights taken at the clipped labels, as a column. -/
theorem V_v18 (c : Dev nD) : V m c main_v18
    = shapeCast S4096x1 (Cert.HostFns.take1 bcast_S_S4096 bcast_S4096_S4096x1_0 gather_S32000_S4096x1_S4096_n_0_n_n_0_1_1 (wK m c) (clipT m c))
        shapeCasts_S4096_S4096x1 := by
  show StableHlo.after (List.flatten [hostOps0, hostOps0_1, hostOps0_2, hostOps0_3, hostOps0_4]) (fun b => m (c, b)) (Proc.devRef .tc main_v18) = _
  rw [ops1_eq, ops3_eq]
  simp only [hostOps0, hostOps0_1', hostOps0_2, hostOps0_3', hostOps0_4, List.flatten_cons, List.flatten_nil, List.append_nil, List.cons_append,
    List.nil_append]
  after_results_simp
  rfl

/-- The program's result: the zero word plus the sum of the output column, divided by the word of 4096. -/
theorem tail_v21 (c : Dev nD) : Pipeline.afterTail₀ cfgs (dats m) 0 (V0 m) [hostOps1] c main_v21
    = Host.divf (Host.reduceAdd (outCol m c) (constant S_ .f32 0x00000000#32) reducesTo_S4096x1_S_d0_1 h_S_)
        (constant S_ .f32 0x45800000#32) := by
  unfold Pipeline.afterTail₀
  show StableHlo.after hostOps1 _ (Proc.devRef .tc main_v21) = _
  after_results
  refine congrArg (fun z => Host.divf (Host.reduceAdd z (constant S_ .f32 0x00000000#32) reducesTo_S4096x1_S_d0_1 h_S_)
    (constant S_ .f32 0x45800000#32)) ?_
  exact (Pipeline.withArrays_arr spec0 launch0.win.arr_inj c _ _ 3).trans (final3 m c)

end Cert.KernelIdeal.KV

end
-- ==== Proof.KRun.lean ====
/-
  The kernel program's run with its result named: every weakly fair execution ends with the result buffer at the mean
  of the output column (the zero word plus its sum, over the word of 4096) and the arguments unchanged.
-/
import proofs.«405151_j91018946937483_3_alg».proof.Proof.KHost

set_option maxRecDepth 16384

noncomputable section

namespace Cert.KernelIdeal.KV

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- The result the run leaves on core `c`. -/
def result (c : Dev nD) : Buf (Elt F) ((c.tc : Thread nD τ).loc main_v21) :=
  Host.divf (Host.reduceAdd (outCol m c) (constant S_ .f32 0x00000000#32) reducesTo_S4096x1_S_d0_1 h_S_)
    (constant S_ .f32 0x45800000#32)

theorem kernel_run : θ_run defs (onTc (τ := τ) (main (F := F))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v21 (Pipeline.mem_restRefs_of main_v21 (by decide) (by decide))).trans (tail_v21 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.LibLogSumExp.lean ====
/-
  Log-sum-exp under a shift, and its online form over blocks.

  For reals `x j`, a shift `a` cancels: `(y - a) - log ∑ j, exp (x j - a) = y - log ∑ j, exp (x j)`. A streaming
  evaluation keeps a shift `a` and the sum `∑ exp (x - a)` over the blocks seen so far; moving to a new shift `b`
  multiplies the kept sum by `exp (a - b)` and adds the new block's terms: the result is the sum over all blocks seen, at
  shift `b`. No property of the shifts is used (they need not be maxima). The last part restates these on the
  extended reals, where a finite value is the coercion of a real and `exp`, `log` are the real functions on finite values.
-/
import Idealize.ShloMosaic.PureOps.Ideal
import Mathlib.Analysis.SpecialFunctions.Log.Basic
import Mathlib.Data.Finset.Fold

noncomputable section

namespace Cert.LibLogSumExp

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a finite value the extended exponential is the real one. -/
theorem exp_coe (r : ℝ) : Ideal.exp (r : EReal) = ((Real.exp r : ℝ) : EReal) := rfl

/-- On a positive finite value the extended logarithm is the real one. -/
theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

/-- A shift cancels in `y - log-sum-exp`. -/
theorem sub_log_sum_exp_shift {ι : Type*} [Fintype ι] [Nonempty ι] (x : ι → ℝ) (y a : ℝ) :
    (y - a) - Real.log (∑ j, Real.exp (x j - a)) = y - Real.log (∑ j, Real.exp (x j)) := by
  have hpos : 0 < ∑ j, Real.exp (x j) := Finset.sum_pos (fun j _ => Real.exp_pos _) Finset.univ_nonempty
  have h1 : ∑ j, Real.exp (x j - a) = Real.exp (-a) * ∑ j, Real.exp (x j) := by
    rw [Finset.mul_sum]
    refine Finset.sum_congr rfl fun j _ => ?_
    rw [← Real.exp_add]; congr 1; ring
  rw [h1, Real.log_mul (Real.exp_pos _).ne' hpos.ne', Real.log_exp]; ring

/-- One step of the online sum: the sum over the first `n` blocks at shift `a`, rescaled to shift `b`, plus block `n`'s
    terms at shift `b`, is the sum over the first `n + 1` blocks at shift `b`. -/
theorem online_step {κ : Type*} [Fintype κ] (x : ℕ → κ → ℝ) (a b : ℝ) (n : ℕ) :
    Real.exp (a - b) * (∑ c ∈ Finset.range n, ∑ q, Real.exp (x c q - a)) + ∑ q, Real.exp (x n q - b)
      = ∑ c ∈ Finset.range (n + 1), ∑ q, Real.exp (x c q - b) := by
  rw [Finset.sum_range_succ, Finset.mul_sum]
  congr 1
  refine Finset.sum_congr rfl fun c _ => ?_
  rw [Finset.mul_sum]
  refine Finset.sum_congr rfl fun q _ => ?_
  rw [← Real.exp_add]; congr 1; ring

/-- A sum of exponentials over a nonempty range of nonempty blocks is positive. -/
theorem sum_exp_pos {κ : Type*} [Fintype κ] [Nonempty κ] (x : ℕ → κ → ℝ) (a : ℝ) (n : ℕ) :
    0 < ∑ c ∈ Finset.range (n + 1), ∑ q, Real.exp (x c q - a) :=
  Finset.sum_pos (fun _ _ => Finset.sum_pos (fun _ _ => Real.exp_pos _) Finset.univ_nonempty)
    (Finset.nonempty_range_add_one)

/-- The fold of `max` from the bottom over a nonempty family of finite values is finite. -/
theorem fold_max_bot_real {κ : Type*} [Fintype κ] [Nonempty κ] (f : κ → EReal) (hf : ∀ k, ∃ r : ℝ, f k = (r : EReal)) :
    ∃ r : ℝ, (Finset.univ : Finset κ).fold max (⊥ : EReal) f = (r : EReal) := by
  have hlt : (Finset.univ : Finset κ).fold max (⊥ : EReal) f < ⊤ :=
    (Finset.fold_max_lt ⊤).mpr ⟨bot_lt_top, fun k _ => by obtain ⟨r, hr⟩ := hf k; rw [hr]; exact EReal.coe_lt_top r⟩
  have hgt : (⊥ : EReal) < (Finset.univ : Finset κ).fold max (⊥ : EReal) f := by
    obtain ⟨k⟩ := ‹Nonempty κ›
    exact (Finset.lt_fold_max ⊥).mpr (Or.inr ⟨k, Finset.mem_univ k, by obtain ⟨r, hr⟩ := hf k; rw [hr]; exact EReal.bot_lt_coe r⟩)
  exact ⟨_, (EReal.coe_toReal hlt.ne hgt.ne').symm⟩

/-- The larger of two finite values is finite. -/
theorem max_coe (a b : ℝ) : max (a : EReal) (b : EReal) = ((max a b : ℝ) : EReal) :=
  (EReal.coe_strictMono.monotone.map_max (a := a) (b := b)).symm

/-- The online step on the extended reals, every operand finite: what the running sum becomes. -/
theorem estep {κ : Type*} [Fintype κ] (x : κ → ℝ) (a b L : ℝ) :
    Ideal.exp ((a : EReal) - (b : EReal)) * (L : EReal) + ∑ q, Ideal.exp ((x q : EReal) - (b : EReal))
      = ((Real.exp (a - b) * L + ∑ q, Real.exp (x q - b) : ℝ) : EReal) := by
  simp only [← EReal.coe_sub, exp_coe, ← coe_sum, ← EReal.coe_mul, ← EReal.coe_add]

/-- The label's log-probability on the extended reals through a finite shift `a` and the sum at that shift: it is the
    unshifted real log-probability. `z` is the zero the kernel subtracts from. -/
theorem logp_shifted {ι : Type*} [Fintype ι] [Nonempty ι] (x : ι → ℝ) (y a : ℝ) :
    ((y : EReal) - (a : EReal)) - Ideal.log ((∑ j, Real.exp (x j - a) : ℝ) : EReal)
      = ((y - Real.log (∑ j, Real.exp (x j)) : ℝ) : EReal) := by
  have hpos : 0 < ∑ j, Real.exp (x j - a) := Finset.sum_pos (fun j _ => Real.exp_pos _) Finset.univ_nonempty
  rw [log_coe hpos, ← EReal.coe_sub, ← EReal.coe_sub, sub_log_sum_exp_shift]

end Cert.LibLogSumExp

end
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KMath.lean ====
import proofs.«405151_j91018946937483_3_alg».proof.Proof.KScr
import proofs.«405151_j91018946937483_3_alg».proof.Proof.LibLogSumExp
import proofs.«405151_j91018946937483_3_alg».proof.Proof.LibTileSum
import proofs.«405151_j91018946937483_3_alg».proof.Proof.LibKeepdims
import Idealize.ShloMosaic.PureOps.Ideal.Laws
import Idealize.ShloMosaic.Lib.ValueIdx
import Idealize.ShloMosaic.Lib.Pipeline.Value

/-!
  The arithmetic of one output row.

  Fix a row p of a row block. Each column block updates two numbers kept for the row: a shift (the larger of the old
  shift and the block's maximum in the row) and a sum (the old sum rescaled from the old shift to the new one, plus the
  block's exponentials at the new shift). When the row's entries are finite reals every shift is a finite real, and
  after blocks 0 … n the sum is ∑ exp (entry - shift) over those blocks: the value of the shift never matters. After the
  fifth block the output is 0 - ((y - a) - log ∑ exp (x - a)) times the weight, and the shift a cancels:
  (y - a) - log ∑ exp (x - a) = y - log ∑ exp x.
-/

namespace Cert.KernelIdeal.KV
open Idealize.ShloMosaic Idealize.ShloMosaic.ValueIdx Cert.KernelIdeal Cert.KernelIdeal.Gen

/-- A 32-bit word whose exponent field is not all ones denotes a real number. -/
theorem ofBits_real_of_exponent (b : BitVec 32) (hb : (b.extractLsb' 23 8).toNat ≠ 2 ^ 8 - 1) :
    ∃ r : ℝ, Ideal.ofBits .f32 b = (r : EReal) := by
  show ∃ r : ℝ, Ideal.ieee 8 23 b = (r : EReal)
  unfold Ideal.ieee
  simp only [if_neg hb]
  split
  · exact ⟨_, rfl⟩
  · exact ⟨_, rfl⟩

/-- The word 0xFF800000 denotes -∞, the bottom of the extended reals. -/
theorem neg_inf_word : Ideal.ofBits .f32 0xFF800000#32 = ⊥ := by simp [Ideal.ofBits, Ideal.ieee]

/-- The starting value of the running maximum is one finite constant at every entry. -/
theorem pay1_apply (j : S256x1.Idx) : k0_pay1 (F := Ideal) j = Ideal.ofBits .f32 0xFF333332#32 := rfl

theorem pay1_real (j : S256x1.Idx) : ∃ r : ℝ, k0_pay1 (F := Ideal) j = (r : EReal) := by
  rw [pay1_apply]
  exact ofBits_real_of_exponent _ (by decide)

/-- The starting value of the running sum is zero at every entry. -/
theorem pay2_apply (j : S256x1.Idx) : k0_pay2 (F := Ideal) j = 0 := by
  show Ideal.ofBits .f32 0x00000000#32 = 0
  exact Ideal.ofBits_zero_f32

/-- Row p of the reduced shape with column k put back is entry (p, k). -/
theorem lift_row (h : S256x6400.Reduces [1] S256) (p : Fin 256) (k : Fin 6400) : h.lift (ix1 p) k = ix2 p k := by
  funext a
  apply Fin.ext
  match a with
  | ⟨0, _⟩ => rfl
  | ⟨1, _⟩ => rfl

/-- The maximum along a row: the fold of max from -∞ over the row's 6400 entries. -/
theorem rowMax (v3 : FVec Ideal S256x6400 .f32) (h : S256x6400.Reduces [1] S256) (hφ : FKind.Formats .f32)
    (hacc : (0xFF800000#32 : BitVec 32) = 0xFF800000#32) (p : Fin 256) :
    multiReduction .maximumf [1] S256 v3 0xFF800000#32 h hφ hacc (ix1 p)
      = (Finset.univ : Finset (Fin 6400)).fold max (Ideal.ofBits .f32 0xFF800000#32) (fun k => v3 (ix2 p k)) := by
  refine (Ideal.multiReduction_maximumf_single v3 0xFF800000#32 h hφ hacc (ix1 p)).trans ?_
  have e : v3 ∘ h.lift (ix1 p) = fun k : Fin 6400 => v3 (ix2 p k) := funext fun k => congrArg v3 (lift_row h p k)
  rw [e]
  rfl

/-- The sum along a row: the sum of the row's 6400 entries. -/
theorem rowSum (v : FVec Ideal S256x6400 .f32) (h : S256x6400.Reduces [1] S256) (hφ : FKind.Formats .f32)
    (hacc : (0x00000000#32 : BitVec 32) = 0x00000000#32) (p : Fin 256) :
    multiReduction .add [1] S256 v 0x00000000#32 h hφ hacc (ix1 p) = ∑ k : Fin 6400, v (ix2 p k) := by
  refine (Ideal.multiReduction_add_single v 0x00000000#32 h hφ hacc (ix1 p)).trans ?_
  show ∑ k : Fin 6400, v (h.lift (ix1 p) k) = _
  exact Finset.sum_congr rfl fun k _ => congrArg v (lift_row h p k)

/-- The new running maximum in row p: the larger of the old one and the row's maximum over this column block. -/
theorem pay3_apply (v3 : Vec Ideal S256x6400 .f32) (v6 : Vec Ideal S256x1 .f32) (p : Fin 256) :
    k0_pay3 v3 v6 (ix2 p (0 : Fin 1))
      = max (v6 (ix2 p (0 : Fin 1)))
          ((Finset.univ : Finset (Fin 6400)).fold max (Ideal.ofBits .f32 0xFF800000#32) (fun k => v3 (ix2 p k))) := by
  unfold k0_pay3
  rw [maximumf_apply, Cert.LibKeepdims.shapeCast_a_a1_apply]
  exact congrArg (max _) (rowMax v3 _ _ _ p)

/-- It is finite when the old one and the row's entries are. -/
theorem pay3_real (v3 : Vec Ideal S256x6400 .f32) (v6 : Vec Ideal S256x1 .f32) (p : Fin 256)
    (h3 : ∀ k : Fin 6400, ∃ r : ℝ, v3 (ix2 p k) = (r : EReal)) (h6 : ∃ r : ℝ, v6 (ix2 p (0 : Fin 1)) = (r : EReal)) :
    ∃ b : ℝ, k0_pay3 v3 v6 (ix2 p (0 : Fin 1)) = (b : EReal) := by
  rw [pay3_apply, neg_inf_word]
  obtain ⟨m, hm⟩ := Cert.LibLogSumExp.fold_max_bot_real (fun k : Fin 6400 => v3 (ix2 p k)) h3
  obtain ⟨r, hr⟩ := h6
  rw [hm, hr, Cert.LibLogSumExp.max_coe]
  exact ⟨_, rfl⟩

/-- The stored running maximum is the new running maximum. -/
theorem pay5_eq (v3 : Vec Ideal S256x6400 .f32) (v6 : Vec Ideal S256x1 .f32) : k0_pay5 v3 v6 = k0_pay3 v3 v6 := by
  unfold k0_pay5
  exact shapeCast_self _ _

/-- The new running sum in row p: the old sum rescaled from the old shift to the new one, plus the row's exponentials
    at the new shift over this column block. -/
theorem pay4_apply (v3 : Vec Ideal S256x6400 .f32) (v6 v8 v14 : Vec Ideal S256x1 .f32) (p : Fin 256) :
    k0_pay4 v3 v6 v8 v14 (ix2 p (0 : Fin 1))
      = Ideal.exp (v8 (ix2 p (0 : Fin 1)) - k0_pay3 v3 v6 (ix2 p (0 : Fin 1))) * v14 (ix2 p (0 : Fin 1))
        + ∑ k : Fin 6400, Ideal.exp (v3 (ix2 p k) - k0_pay3 v3 v6 (ix2 p (0 : Fin 1))) := by
  unfold k0_pay4
  rw [shapeCast_self, addf_apply, mulf_apply, Cert.LibKeepdims.shapeCast_a_a1_apply]
  refine congrArg₂ (· + ·) rfl ((rowSum _ _ _ _ p).trans ?_)
  refine Finset.sum_congr rfl fun k _ => ?_
  show Ideal.exp (v3 (ix2 p k) - broadcastTo S256x6400 (k0_pay3 v3 v6) _ (ix2 p k)) = _
  rw [Cert.LibKeepdims.broadcastTo_a1_ab_apply]

/-- The output entry: zero minus (label logit minus shift minus log of the sum), times the weight. -/
theorem pay6_apply (v28 v30 v32 v37 : Vec Ideal S256x1 .f32) (j : S256x1.Idx) :
    k0_pay6 v28 v30 v32 v37 j
      = (Ideal.ofBits .f32 0x00000000#32 - ((v28 j - v30 j) - Ideal.log (v32 j))) * v37 j := by
  unfold k0_pay6
  rw [shapeCast_self, shapeCast_self]
  rfl

/-- The row's entry at position q of column block c, as a function of every natural c (zero past the fifth block). -/
noncomputable def blockEntry (x : Fin (5 * 6400) → ℝ) (c : ℕ) (q : Fin 6400) : ℝ :=
  if h : c < 5 then x (Cert.LibTileSum.pos ⟨c, h⟩ q) else 0

theorem blockEntry_fin (x : Fin (5 * 6400) → ℝ) (k : Fin 5) (q : Fin 6400) :
    blockEntry x k.val q = x (Cert.LibTileSum.pos k q) := by
  unfold blockEntry
  rw [dif_pos k.isLt]

/-- One update of the two scratches in row p. If the column block's entries are the reals xs n, the running maximum is
    the real a, and the running sum is the sum over blocks 0 … n-1 of exp (xs c q - a), then the new running maximum is
    some real b and the new running sum is the sum over blocks 0 … n of exp (xs c q - b). -/
theorem step (v3 : Vec Ideal S256x6400 .f32) (v6 v14 : Vec Ideal S256x1 .f32) (p : Fin 256) (xs : ℕ → Fin 6400 → ℝ)
    (n : ℕ) (a : ℝ)
    (h3 : ∀ q : Fin 6400, v3 (ix2 p q) = ((xs n q : ℝ) : EReal))
    (h6 : v6 (ix2 p (0 : Fin 1)) = (a : EReal))
    (h14 : v14 (ix2 p (0 : Fin 1)) = ((∑ c ∈ Finset.range n, ∑ q : Fin 6400, Real.exp (xs c q - a) : ℝ) : EReal)) :
    ∃ b : ℝ, k0_pay5 v3 v6 (ix2 p (0 : Fin 1)) = (b : EReal) ∧
      k0_pay4 v3 v6 v6 v14 (ix2 p (0 : Fin 1))
        = ((∑ c ∈ Finset.range (n + 1), ∑ q : Fin 6400, Real.exp (xs c q - b) : ℝ) : EReal) := by
  obtain ⟨b, hb⟩ := pay3_real v3 v6 p (fun q => ⟨_, h3 q⟩) ⟨a, h6⟩
  refine ⟨b, by rw [pay5_eq]; exact hb, ?_⟩
  rw [pay4_apply, hb, h6, h14]
  simp only [h3]
  rw [Cert.LibLogSumExp.estep (xs n) a b _, Cert.LibLogSumExp.online_step xs a b n]

/-- After column blocks 0 … n of a row whose entries are finite, the running maximum in row p is a real a and the
    running sum is the sum over those blocks of exp (entry - a). -/
theorem scr_row (xb : ℕ → Vec Ideal S256x6400 .f32) (p : Fin 256) (xs : ℕ → Fin 6400 → ℝ)
    (hx : ∀ c, c < 5 → ∀ q : Fin 6400, xb c (ix2 p q) = ((xs c q : ℝ) : EReal)) :
    ∀ n, n < 5 → ∃ a : ℝ, (scr xb n).1 (ix2 p (0 : Fin 1)) = (a : EReal) ∧
      (scr xb n).2 (ix2 p (0 : Fin 1))
        = ((∑ c ∈ Finset.range (n + 1), ∑ q : Fin 6400, Real.exp (xs c q - a) : ℝ) : EReal)
  | 0, _ => by
    obtain ⟨c0, hc0⟩ := pay1_real (ix2 p (0 : Fin 1))
    rw [scr_zero]
    exact step (xb 0) _ _ p xs 0 c0 (hx 0 (by omega)) hc0 (by rw [pay2_apply]; simp)
  | n + 1, hn => by
    obtain ⟨a, h1, h2⟩ := scr_row xb p xs hx n (by omega)
    rw [scr_succ]
    exact step (xb (n + 1)) _ _ p xs (n + 1) a (hx (n + 1) hn) h1 h2

/-- Row p of a row block's output: if the row's 32000 logits are the finite reals x (column block k, position q at x (pos k q)) and its
    label logit is the finite real y, the output is minus the label's log-probability, y - log ∑ exp x, times the row's weight. -/
theorem outBlk_apply (xb : ℕ → Vec Ideal S256x6400 .f32) (tl wt : Vec Ideal S256x1 .f32) (p : Fin 256)
    (x : Fin (5 * 6400) → ℝ) (y : ℝ)
    (hx : ∀ (k : Fin 5) (q : Fin 6400), xb k.val (ix2 p q) = ((x (Cert.LibTileSum.pos k q) : ℝ) : EReal))
    (hy : tl (ix2 p (0 : Fin 1)) = (y : EReal)) :
    outBlk xb tl wt (ix2 p (0 : Fin 1))
      = ((-(y - Real.log (∑ j : Fin (5 * 6400), Real.exp (x j))) : ℝ) : EReal) * wt (ix2 p (0 : Fin 1)) := by
  have hxs : ∀ c, c < 5 → ∀ q : Fin 6400, xb c (ix2 p q) = ((blockEntry x c q : ℝ) : EReal) := fun c hc q => by
    have e : blockEntry x c q = x (Cert.LibTileSum.pos ⟨c, hc⟩ q) := blockEntry_fin x ⟨c, hc⟩ q
    rw [e]
    exact hx ⟨c, hc⟩ q
  obtain ⟨a, h1, h2⟩ := scr_row xb p (blockEntry x) hxs 4 (by norm_num)
  have hsum : ∑ c ∈ Finset.range (4 + 1), ∑ q : Fin 6400, Real.exp (blockEntry x c q - a)
      = ∑ j : Fin (5 * 6400), Real.exp (x j - a) := by
    rw [Finset.sum_range (fun c => ∑ q : Fin 6400, Real.exp (blockEntry x c q - a))]
    simp only [blockEntry_fin]
    exact Cert.LibTileSum.sum_tiles (fun j => Real.exp (x j - a))
  haveI : Nonempty (Fin (5 * 6400)) := ⟨⟨0, by norm_num⟩⟩
  unfold outBlk
  rw [pay6_apply, hy, h1, h2, hsum, Cert.LibLogSumExp.logp_shifted x y a, Ideal.ofBits_zero_f32, zero_sub,
    ← EReal.coe_neg]

end Cert.KernelIdeal.KV
-- ==== Proof.Spec.lean ====
/-
  The balanced-softmax cross-entropy, row by row, as one function of the argument arrays.

  For a row `r` of the logits `X` (all finite), with label column `t = T r` and class weights `W`:
      loss r = -(X[r, t] - log (∑ j, exp X[r, j])) · W[t]
  and the result is the mean of the 4096 row losses. Both programs compute the log-sum-exp through a
  shift (the reference by the row maximum, the kernel by a running maximum over column blocks that
  starts from a finite constant); the shift cancels, so the function below carries none.
-/
import Idealize.ShloMosaic.PureOps.Ideal
import Idealize.ShloMosaic.Lib.ValueIdx
import Mathlib.Analysis.SpecialFunctions.Log.Basic

noncomputable section

namespace Cert.Spec

open Idealize.ShloMosaic Idealize.ShloMosaic.ValueIdx

/-- The logits' shape, the labels' and the class table's. -/
abbrev SX : Shape := ⟨2, ![4096, 32000]⟩
abbrev ST : Shape := ⟨1, ![4096]⟩
abbrev SW : Shape := ⟨1, ![32000]⟩

/-- Row `r`'s label as a column number: the label word read signed and clamped into the table, which is how
    a gather reads a start index (for a label in range it is the label itself). -/
def col (T : IVec ST 32) (r : Fin 4096) : Fin 32000 :=
  ⟨min (T (ix1 r)).toInt.toNat (32000 - 1), by omega⟩

/-- Entry `(r, j)` of the logits as a real number (the entries are finite under the precondition). -/
def xr (X : SX.Idx → EReal) (r : Fin 4096) (j : Fin 32000) : ℝ := (X (ix2 r j)).toReal

/-- Row `r`'s log-probability of its label: `X[r, t] - log ∑ j, exp X[r, j]`. -/
def logpRow (X : SX.Idx → EReal) (T : IVec ST 32) (r : Fin 4096) : ℝ :=
  xr X r (col T r) - Real.log (∑ j : Fin 32000, Real.exp (xr X r j))

/-- Row `r`'s loss: minus its label's log-probability, times the label's class weight. -/
def lossRow (X : SX.Idx → EReal) (T : IVec ST 32) (W : SW.Idx → EReal) (r : Fin 4096) : EReal :=
  ((-(logpRow X T r) : ℝ) : EReal) * W (ix1 (col T r))

/-- The mean of the row losses, as both programs form it: the zero word plus the sum, divided by the word of 4096. -/
def total (X : SX.Idx → EReal) (T : IVec ST 32) (W : SW.Idx → EReal) : EReal :=
  Ideal.div (Ideal.ofBits .f32 0x00000000#32 + ∑ r : Fin 4096, lossRow X T W r) (Ideal.ofBits .f32 0x45800000#32)

/-- A label in range is its own column. -/
theorem col_val (T : IVec ST 32) (r : Fin 4096) (h0 : 0 ≤ (T (ix1 r)).toInt) (h1 : (T (ix1 r)).toInt < 32000) :
    ((col T r).val : ℤ) = (T (ix1 r)).toInt := by
  unfold col
  simp only
  omega

end Cert.Spec

end
-- ==== Proof.KFinal.lean ====
/-
  The kernel program's result as the mean of the row losses. Row `r` of the output column is entry `r % 256` of the
  output block of row block `r / 256`; that block's logits rows are rows of the logits, its label logit is the logits at
  the label's column (the clip does nothing to a label in range), its weight the class weight at the label; so by the
  arithmetic of one row (`outBlk_apply`) it is the row's loss, and the host tail takes the mean.
-/
import proofs.«405151_j91018946937483_3_alg».proof.Proof.KHost
import proofs.«405151_j91018946937483_3_alg».proof.Proof.KMath
import proofs.«405151_j91018946937483_3_alg».proof.Proof.Spec
import proofs.«405151_j91018946937483_3_alg».proof.Proof.LibColumn
import proofs.«405151_j91018946937483_3_alg».proof.Proof.LibKeepdims
import proofs.«405151_j91018946937483_3_alg».proof.Proof.LibTileSum
import Idealize.ShloMosaic.PureOps.Ideal.Laws
import Idealize.ShloMosaic.Lib.ValueIdx

set_option maxRecDepth 16384

noncomputable section

namespace Cert.KernelIdeal.KV

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The three argument arrays of core `c`, at their literal types. -/
abbrev argX (c : Dev nD) : FVec Ideal S4096x32000 .f32 := m ((c : Thread nD τ).loc main_arg0)
abbrev argT (c : Dev nD) : IVec S4096 32 := m ((c : Thread nD τ).loc main_arg1)

/-- Row `r` of the output column is the row's loss. -/
theorem outCol_row (c : Dev nD) (hX : ∀ i, ∃ x : ℝ, argX m c i = (x : EReal))
    (hT : ∀ i, 0 ≤ (argT m c i).toInt ∧ (argT m c i).toInt < 32000) (r : Fin 4096) :
    outCol m c (ix2 r (0 : Fin 1)) = Cert.Spec.lossRow (argX m c) (argT m c) (wK m c) r := by
  have hrlt := r.isLt
  have hpt : (ptOf r).val = 5 * (r.val / 256) + 4 := rfl
  -- the row's logits are real numbers
  have hxr : ∀ j : Fin 32000, argX m c (ix2 r j) = ((Cert.Spec.xr (argX m c) r j : ℝ) : EReal) := by
    intro j
    obtain ⟨x, hx⟩ := hX (ix2 r j)
    unfold Cert.Spec.xr
    rw [hx, EReal.toReal_coe]
  -- the clip does not move the row's label
  have hclip : clipT m c (ix1 r) = argT m c (ix1 r) := Cert.HostFns.clip_apply _ _ _ (hT _).1 (hT _).2
  -- row r is row r % 256 of the blocks at the point that writes it back
  have e1 : rowOf (ptOf r) (inBlk r) = r := by
    apply Fin.ext
    show 256 * ((5 * (r.val / 256) + 4) / 5) + r.val % 256 = r.val
    omega
  -- column block k of the row block: rows of the logits
  have hx : ∀ (k : Fin 5) (q : Fin 6400), xbOf m c (ptOf r) k.val (ix2 (inBlk r) q)
      = ((Cert.Spec.xr (argX m c) r (Cert.LibTileSum.pos k q) : ℝ) : EReal) := by
    intro k q
    have hk := k.isLt
    have hlt : 5 * (r.val / 256) + k.val < cfg0.N := by rw [N80]; omega
    have ept : xbOf m c (ptOf r) k.val = xblk m c ⟨5 * (r.val / 256) + k.val, hlt⟩ := by
      unfold xbOf
      congr 1
      apply Fin.ext
      show min ((ptOf r).val - (ptOf r).val % 5 + k.val) 79 = 5 * (r.val / 256) + k.val
      rw [hpt]
      omega
    have er : rowOf ⟨5 * (r.val / 256) + k.val, hlt⟩ (inBlk r) = r := by
      apply Fin.ext
      show 256 * ((5 * (r.val / 256) + k.val) / 5) + r.val % 256 = r.val
      omega
    have ec : colOf ⟨5 * (r.val / 256) + k.val, hlt⟩ q = (Cert.LibTileSum.pos k q : Fin 32000) := by
      apply Fin.ext
      show 6400 * ((5 * (r.val / 256) + k.val) % 5) + q.val = 6400 * k.val + q.val
      omega
    rw [ept, xblk_apply, V_main_arg0, er, ec]
    exact hxr _
  -- the label logit: the logits at the label's column
  have hy : tblk m c (ptOf r) (ix2 (inBlk r) (0 : Fin 1))
      = ((Cert.Spec.xr (argX m c) r (Cert.Spec.col (argT m c) r) : ℝ) : EReal) := by
    have hidx : (broadcastInDim S4096x1 ![0] bcast_S4096_S4096x1_0 (clipT m c)) (ix2 r (0 : Fin 1)) = argT m c (ix1 r) := by
      rw [Cert.LibColumn.broadcastInDim_a_a1_apply]
      exact hclip
    rw [tblk_apply, e1, V_v17,
      Cert.HostFns.takeAlong_apply _ _ _ _ _ _ _ _ _ _ _ r 0 (by rw [hidx]; exact (hT _).1) (by rw [hidx]; exact (hT _).2)]
    refine (congrArg (fun j : Fin 32000 => argX m c (ix2 r j)) (?_ : _ = Cert.Spec.col (argT m c) r)).trans (hxr _)
    apply Fin.ext
    show min _ (32000 - 1) = min _ (32000 - 1)
    rw [hidx]
  -- the weight: the class weight at the label
  have hw : wblk m c (ptOf r) (ix2 (inBlk r) (0 : Fin 1)) = wK m c (ix1 (Cert.Spec.col (argT m c) r)) := by
    rw [wblk_apply, e1, V_v18, Cert.LibKeepdims.shapeCast_a_a1_apply,
      Cert.HostFns.take1_apply _ _ _ rfl rfl rfl rfl _ _ r (by rw [hclip]; exact (hT _).1) (by rw [hclip]; exact (hT _).2)]
    refine congrArg (fun j : Fin 32000 => wK m c (ix1 j)) (Fin.ext ?_)
    show min _ (32000 - 1) = min _ (32000 - 1)
    rw [hclip]
  show outBlk (xbOf m c (ptOf r)) (tblk m c (ptOf r)) (wblk m c (ptOf r)) (ix2 (inBlk r) (0 : Fin 1)) = _
  rw [outBlk_apply (xbOf m c (ptOf r)) (tblk m c (ptOf r)) (wblk m c (ptOf r)) (inBlk r)
    (fun j => Cert.Spec.xr (argX m c) r j) (Cert.Spec.xr (argX m c) r (Cert.Spec.col (argT m c) r)) hx hy, hw]
  rfl

/-- The kernel program's result is the mean of the row losses. -/
theorem kernel_total (c : Dev nD) (hX : ∀ i, ∃ x : ℝ, argX m c i = (x : EReal))
    (hT : ∀ i, 0 ≤ (argT m c i).toInt ∧ (argT m c i).toInt < 32000) (i : S_.Idx) :
    Host.divf (F := Ideal) (Host.reduceAdd (F := Ideal) (outCol m c) (constant (F := Ideal) S_ .f32 0x00000000#32) reducesTo_S4096x1_S_d0_1 h_S_)
        (constant (F := Ideal) S_ .f32 0x45800000#32) i
      = Cert.Spec.total (argX m c) (argT m c) (wK m c) := by
  -- the sum into the scalar shape is the zero word plus the sum over every entry of the column
  have hsum : Host.reduceAdd (F := Ideal) (outCol m c) (constant (F := Ideal) S_ .f32 0x00000000#32) reducesTo_S4096x1_S_d0_1 h_S_ i
      = Ideal.ofBits .f32 0x00000000#32 + ∑ j : S4096x1.Idx, outCol m c j := by
    generalize outCol m c = y0
    simp only [Host.reduceAdd, Ideal.hostReduceAdd_def]
    exact Ideal.hostReduceAdd_total reducesTo_S4096x1_S_d0_1 (fun b => b.elim0) y0 _ i
  show Ideal.div (Host.reduceAdd (F := Ideal) (outCol m c) (constant (F := Ideal) S_ .f32 0x00000000#32) reducesTo_S4096x1_S_d0_1 h_S_ i)
    (Ideal.ofBits .f32 0x45800000#32) = _
  rw [hsum, sum_idx2]
  unfold Cert.Spec.total
  refine congrArg (fun z => Ideal.div (Ideal.ofBits .f32 0x00000000#32 + z) (Ideal.ofBits .f32 0x45800000#32)) ?_
  refine Finset.sum_congr rfl fun r _ => ?_
  rw [Fin.sum_univ_one]
  exact outCol_row m c hX hT r

end Cert.KernelIdeal.KV

end
-- ==== Proof.RefValue.lean ====
/-
  The reference program's result as the mean of the row losses. Its `log_softmax` shifts each row by the row maximum
  (finite for finite logits) and subtracts the log of the shifted sum; its `take_along_axis` reads the label's column of
  that, its take reads the label's class weight; the shift cancels (`LibLogSumExp.logp_shifted`).
-/
import proofs.«405151_j91018946937483_3_alg».proof.Proof.RefReadP
import proofs.«405151_j91018946937483_3_alg».proof.Proof.Spec
import proofs.«405151_j91018946937483_3_alg».proof.Proof.HostFns
import proofs.«405151_j91018946937483_3_alg».proof.Proof.LibLogSumExp
import proofs.«405151_j91018946937483_3_alg».proof.Proof.LibColumn
import proofs.«405151_j91018946937483_3_alg».proof.Proof.LibKeepdims
import Idealize.ShloMosaic.Lib.ValueIdx
import Idealize.ShloMosaic.Lib.ValueIdxRank1
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP

/-- The class weights are the normalised squared counts. -/
theorem v7_eq (Cc : (⟨S32000, .f32⟩ : BufTy).Contents (Elt Ideal)) :
    val_main_v7 (F := Ideal) Cc
      = Cert.HostFns.wvec (F := Ideal) Facts₀.reducesTo_S32000_S_d0 Facts₀.h_S_ Facts₀.bcast_S_S32000 Cc := rfl

/-- The weight the reference multiplies each row by is the rank-1 take of the class weights at the labels. -/
theorem v19_eq (T : (⟨S4096, .i32⟩ : BufTy).Contents (Elt Ideal)) (Cc : (⟨S32000, .f32⟩ : BufTy).Contents (Elt Ideal)) :
    val_main_v19 (F := Ideal) T Cc
      = Cert.HostFns.take1 Facts₀.bcast_S_S4096 Facts₀.bcast_S4096_S4096x1_0 gather_S32000_S4096x1_S4096_n_0_n_n_0_1_1
          (val_main_v7 (F := Ideal) Cc) T := rfl

/-- The column the reference keeps of each row is `take_along_axis` of the log-probabilities at the labels. -/
theorem v10_eq (X : (⟨S4096x32000, .f32⟩ : BufTy).Contents (Elt Ideal)) (T : (⟨S4096, .i32⟩ : BufTy).Contents (Elt Ideal)) :
    val_main_v10 (F := Ideal) X T
      = Cert.HostFns.takeAlong Facts₀.bcast_S_S4096x1 Facts₀.shapeCasts_S4096x1_S4096x1x1 Facts₀.bcast_S_S4096x1x1
          Facts₀.bcast_S1_S1x1x1_2 Facts₀.bcast_S1x1x1_S4096x1x1_0_1_2 Facts₀.reducesTo_S4096x1x1_S4096x1_d2 Facts₀.h_S_
          (Cert.LibTakeAlong.alongDims 4096 32000 Facts₀.gather_S4096x32000_S4096x1x1_S4096x1_n_1_0_0_1_2_11_wf)
          (val_main_v8 (F := Ideal) X) (val_main_call1_v14 (F := Ideal)) (val_main_v9 (F := Ideal) T) := rfl

/-- The zero word is zero. -/
theorem zero_word : Ideal.ofBits .f32 0x00000000#32 = 0 := by simp [Ideal.ofBits, Ideal.ieee]

/-- The word 0xFF800000 is −∞. -/
theorem ninf_word : Ideal.ofBits .f32 0xFF800000#32 = ⊥ := by simp [Ideal.ofBits, Ideal.ieee]

/-- The class weight the reference multiplies row `r`'s loss by is the weight of the row's label column. -/
theorem v19_apply (T : (⟨S4096, .i32⟩ : BufTy).Contents (Elt Ideal)) (Cc : (⟨S32000, .f32⟩ : BufTy).Contents (Elt Ideal))
    (hT : ∀ i, 0 ≤ (T i).toInt ∧ (T i).toInt < 32000) (r : Fin 4096) :
    val_main_v19 (F := Ideal) T Cc (ix1 r)
      = Cert.HostFns.wvec (F := Ideal) Facts₀.reducesTo_S32000_S_d0 Facts₀.h_S_ Facts₀.bcast_S_S32000 Cc (ix1 (Cert.Spec.col T r)) := by
  rw [v19_eq, v7_eq]
  exact Cert.HostFns.take1_apply _ _ _ rfl rfl rfl rfl _ T r (hT (ix1 r)).1 (hT (ix1 r)).2

/-- The reference's `take_along_axis` reads, in row `r`, the log-probability at the row's label column. -/
theorem v10_apply (X : (⟨S4096x32000, .f32⟩ : BufTy).Contents (Elt Ideal)) (T : (⟨S4096, .i32⟩ : BufTy).Contents (Elt Ideal))
    (hT : ∀ i, 0 ≤ (T i).toInt ∧ (T i).toInt < 32000) (r : Fin 4096) :
    val_main_v10 (F := Ideal) X T (ix2 r (0 : Fin 1)) = val_main_v8 (F := Ideal) X (ix2 r (Cert.Spec.col T r)) := by
  have h9 : val_main_v9 (F := Ideal) T (ix2 r (0 : Fin 1)) = T (ix1 r) :=
    Cert.LibColumn.broadcastInDim_a_a1_apply T _ r 0
  rw [v10_eq]
  rw [Cert.HostFns.takeAlong_apply _ _ _ _ _ _ _ _ _ _ _ r 0 (by rw [h9]; exact (hT (ix1 r)).1) (by rw [h9]; exact (hT (ix1 r)).2)]
  unfold Cert.Spec.col
  simp only [h9]

/-- Row `r`'s maximum as the reference forms it (the larger of −∞ and the fold of the maximum from −∞ over the row)
    is a real number when the row's entries are. -/
theorem rowmax_real (X : (⟨S4096x32000, .f32⟩ : BufTy).Contents (Elt Ideal)) (hX : ∀ i, ∃ x : ℝ, X i = (x : EReal))
    (r : Fin 4096) : ∃ a : ℝ, val_main_call0_v2 (F := Ideal) X (ix1 r) = (a : EReal) := by
  have hred : S4096x32000.Reduces [1] S4096 := by decide
  haveI : Nonempty (Fin (S4096x32000.size 1)) := ⟨⟨0, by decide⟩⟩
  obtain ⟨a, ha⟩ := Cert.LibLogSumExp.fold_max_bot_real (fun k : Fin (S4096x32000.size 1) => X (hred.lift (ix1 r) k))
    (fun k => hX _)
  refine ⟨a, ?_⟩
  have hfold := Host.reduce_eq_fold_single (α := Ideal .f32) (s := S4096x32000) (t := S4096) (a := 1) (u := S_)
    FloatOps.maximumf X (val_main_call0_cst (F := Ideal)) reducesTo_S4096x32000_S4096_d1 hred h_S_ (ix1 r)
  rw [val_main_call0_v2_apply, val_main_call0_v1_apply, val_main_call0_cst_0_apply]
  unfold val_main_call0_v0
  rw [hfold, val_main_call0_cst_apply]
  simp only [Ideal.ofBits_def, Ideal.maximumf_def, ninf_word]
  show max ⊥ (Finset.fold max ⊥ (fun k : Fin (S4096x32000.size 1) => X (hred.lift (ix1 r) k)) Finset.univ) = (a : EReal)
  rw [ha]
  exact max_eq_right bot_le

/-- Entry `(r, t)` of the reference's `log_softmax`: the shift by the row maximum cancels, leaving
    `X[r, t] - log ∑ k, exp X[r, k]` on the reals. -/
theorem v8_apply (X : (⟨S4096x32000, .f32⟩ : BufTy).Contents (Elt Ideal)) (hX : ∀ i, ∃ x : ℝ, X i = (x : EReal))
    (r : Fin 4096) (t : Fin 32000) :
    val_main_v8 (F := Ideal) X (ix2 r t)
      = ((Cert.Spec.xr X r t - Real.log (∑ k : Fin 32000, Real.exp (Cert.Spec.xr X r k)) : ℝ) : EReal) := by
  obtain ⟨a, ha⟩ := rowmax_real X hX r
  -- every entry of the row is the coercion of its real value
  have hx : ∀ k : Fin 32000, X (ix2 r k) = ((Cert.Spec.xr X r k : ℝ) : EReal) := fun k => by
    obtain ⟨x, hx⟩ := hX (ix2 r k)
    unfold Cert.Spec.xr
    rw [hx, EReal.toReal_coe]
  -- the shift broadcast over the row is the row maximum
  have h4 : ∀ k : Fin 32000, val_main_call0_v4 (F := Ideal) X (ix2 r k) = (a : EReal) := fun k => by
    rw [val_main_call0_v4_apply, val_main_call0_v3_apply, ← ha]
    exact congrArg _ (funext fun d => match d with | ⟨0, _⟩ => rfl)
  -- the shifted entries
  have h5 : ∀ k : Fin 32000, val_main_call0_v5 (F := Ideal) X (ix2 r k) = ((Cert.Spec.xr X r k - a : ℝ) : EReal) := fun k => by
    rw [val_main_call0_v5_apply, h4, hx k, Ideal.subf_def, ← EReal.coe_sub]
  -- the row's sum of shifted exponentials
  have h6 : ∀ k : Fin 32000, val_main_call0_v6 (F := Ideal) X (idx_main_call0_v7 (ix1 r) k)
      = ((Real.exp (Cert.Spec.xr X r k - a) : ℝ) : EReal) := fun k => by
    have e : idx_main_call0_v7 (ix1 r) k = ix2 r k := funext fun d => match d with | ⟨0, _⟩ => rfl | ⟨1, _⟩ => rfl
    rw [e, val_main_call0_v6_apply, h5, Ideal.hostUnary_exp_def, Cert.LibLogSumExp.exp_coe]
  have h7 : val_main_call0_v7 (F := Ideal) X (ix1 r) = ((∑ k : Fin 32000, Real.exp (Cert.Spec.xr X r k - a) : ℝ) : EReal) := by
    rw [val_main_call0_v7_apply, val_main_call0_cst_1_apply, Ideal.ofBits_def, zero_word, zero_add,
      Cert.LibLogSumExp.coe_sum]
    exact Finset.sum_congr rfl fun k _ => h6 k
  have e8 : idx_main_call0_v8 (idx_main_call0_v10 (ix2 r t)) = ix1 r := funext fun d => match d with | ⟨0, _⟩ => rfl
  rw [val_main_v8_apply, h5, val_main_call0_v10_apply, val_main_call0_v9_apply, val_main_call0_v8_apply, e8, h7,
    Ideal.subf_def, Ideal.hostUnary_log_def, EReal.coe_sub]
  exact Cert.LibLogSumExp.logp_shifted _ _ _

/-- Row `r`'s loss in the reference: minus the label's log-probability, times the label's class weight. -/
theorem v20_apply (X : (⟨S4096x32000, .f32⟩ : BufTy).Contents (Elt Ideal)) (T : (⟨S4096, .i32⟩ : BufTy).Contents (Elt Ideal))
    (Cc : (⟨S32000, .f32⟩ : BufTy).Contents (Elt Ideal))
    (hX : ∀ i, ∃ x : ℝ, X i = (x : EReal)) (hT : ∀ i, 0 ≤ (T i).toInt ∧ (T i).toInt < 32000) (r : Fin 4096) :
    val_main_v20 (F := Ideal) X T Cc (ix1 r)
      = Cert.Spec.lossRow X T (Cert.HostFns.wvec (F := Ideal) Facts₀.reducesTo_S32000_S_d0 Facts₀.h_S_ Facts₀.bcast_S_S32000 Cc) r := by
  have e11 : idx_main_v11 (ix1 r) = ix2 r (0 : Fin 1) :=
    funext fun d => match d with | ⟨0, _⟩ => Fin.ext (Nat.div_one _) | ⟨1, _⟩ => rfl
  rw [val_main_v20_apply, val_main_v12_apply, val_main_v11_apply, e11, v10_apply X T hT, v8_apply X hX, v19_apply T Cc hT,
    Ideal.mulf_def, Ideal.hostNegf_def, Ideal.negf_def, ← EReal.coe_neg]
  rfl

/-- The reference's result, at finite logits and labels that are column numbers, is the mean of the row losses at the
    class weights it computes. -/
theorem ref_total (X : (⟨S4096x32000, .f32⟩ : BufTy).Contents (Elt Ideal)) (T : (⟨S4096, .i32⟩ : BufTy).Contents (Elt Ideal))
    (Cc : (⟨S32000, .f32⟩ : BufTy).Contents (Elt Ideal))
    (hX : ∀ i, ∃ x : ℝ, X i = (x : EReal)) (hT : ∀ i, 0 ≤ (T i).toInt ∧ (T i).toInt < 32000) (i : S_.Idx) :
    val_main_v22 (F := Ideal) X T Cc i
      = Cert.Spec.total X T (Cert.HostFns.wvec (F := Ideal) Facts₀.reducesTo_S32000_S_d0 Facts₀.h_S_ Facts₀.bcast_S_S32000 Cc) := by
  -- the sum over the rank-1 index set is the sum over the 4096 rows
  have hsum : ∑ j : S4096.Idx, val_main_v20 (F := Ideal) X T Cc j
      = ∑ r : Fin 4096, Cert.Spec.lossRow X T
          (Cert.HostFns.wvec (F := Ideal) Facts₀.reducesTo_S32000_S_d0 Facts₀.h_S_ Facts₀.bcast_S_S32000 Cc) r :=
    Fintype.sum_equiv idxEquiv1 _ _ fun j => by
      exact (congrArg (val_main_v20 (F := Ideal) X T Cc) (eq_ix1 j)).trans (v20_apply X T Cc hX hT (j 0))
  rw [val_main_v22_apply, val_main_v21_apply, val_main_cst_3_apply, val_main_cst_4_apply, hsum]
  rfl

end Cert.ReferenceIdeal.RefValue

end
-- ==== Proof.lean ====
/-
  The certificate of the balanced-softmax cross-entropy kernel against its jnp reference, over the extended reals.

  Both programs form, for each of 4096 rows r with label t = targets[r] and class weights w (the counts normalised,
  squared, normalised again), the loss  -(logits[r, t] - log ∑ j, exp logits[r, j]) · w[t]  and return the mean. The
  reference computes the log-sum-exp through a shift by the row maximum; the kernel streams the row in 5 column blocks
  with a running maximum that starts from a finite constant and a running sum rescaled at each block: for finite logits
  every shift is finite and cancels (`Cert.LibLogSumExp`). The labels index an axis of extent 32000: the precondition
  says they are in range, where the kernel's clip, the reference's wrap of negative positions and its range mask are all
  the identity. The frames are the generated ones (the reference's from its run); the idealization rewrote nothing.
-/
import proofs.«405151_j91018946937483_3_alg».proof.Defs
import proofs.«405151_j91018946937483_3_alg».proof.Proof.Gen.Kernel
import proofs.«405151_j91018946937483_3_alg».proof.Proof.Gen.Kernel.Skeleton
import proofs.«405151_j91018946937483_3_alg».proof.Proof.Gen.Kernel.Launch
import proofs.«405151_j91018946937483_3_alg».proof.Proof.Gen.Kernel.Points
import proofs.«405151_j91018946937483_3_alg».proof.Proof.Gen.Kernel.Frame
import proofs.«405151_j91018946937483_3_alg».proof.Proof.Gen.KernelIdeal
import proofs.«405151_j91018946937483_3_alg».proof.Proof.Gen.KernelIdeal.Skeleton
import proofs.«405151_j91018946937483_3_alg».proof.Proof.Gen.KernelIdeal.Launch
import proofs.«405151_j91018946937483_3_alg».proof.Proof.Gen.KernelIdeal.Points
import proofs.«405151_j91018946937483_3_alg».proof.Proof.Gen.KernelIdeal.Frame
import proofs.«405151_j91018946937483_3_alg».proof.Proof.Gen.ReferenceIdeal
import proofs.«405151_j91018946937483_3_alg».proof.Proof.RefRunP
import proofs.«405151_j91018946937483_3_alg».proof.Proof.RefReadP
import proofs.«405151_j91018946937483_3_alg».proof.Proof.Gen.Pre_finite_inputs
import proofs.«405151_j91018946937483_3_alg».proof.Proof.PreFacts
import proofs.«405151_j91018946937483_3_alg».proof.Proof.KRun
import proofs.«405151_j91018946937483_3_alg».proof.Proof.KFinal
import proofs.«405151_j91018946937483_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Run from memories agreeing on the arguments, both programs end at the mean of the row losses. -/
theorem algebraic : Cert.algebraic_KernelIdeal_ReferenceIdeal := by
  intro m ρ m' ρ' hpre hagree
  refine ⟨fun c => Cert.KernelIdeal.KV.result (F := Ideal) m c, Cert.KernelIdeal.KV.kernel_run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hT⟩ := Cert.PreFacts.decode _ _ _ (hpre c)
  rw [Cert.ReferenceIdeal.ReadP.val_main_v22_eq, (hagree c).1, (hagree c).2.1, (hagree c).2.2]
  funext i
  rw [Cert.ReferenceIdeal.RefValue.ref_total _ _ _ hX hT i]
  exact (Cert.KernelIdeal.KV.kernel_total m c hX hT i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
